-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S192x640 .f32 .bf16
  ∧ IdealRules.truncf_extf.Statement Cert.KernelIdeal.S192x640 .f32 .bf16
  ∧ IdealRules.truncf_extf.Statement Cert.KernelIdeal.S192x640 .f32 .bf16
  ∧ IdealRules.truncf_extf.Statement Cert.KernelIdeal.S192x640 .f32 .bf16
  ∧ IdealRules.truncf_extf.Statement Cert.KernelIdeal.S192x640 .f32 .bf16
  ∧ IdealRules.truncf_extf.Statement Cert.KernelIdeal.S192x640 .f32 .bf16
  ∧ IdealRules.truncf_extf.Statement Cert.KernelIdeal.S192x640 .f32 .bf16
  ∧ IdealRules.truncf_extf.Statement Cert.KernelIdeal.S192x640 .f32 .bf16
  ∧ IdealRules.truncf_extf.Statement Cert.KernelIdeal.S192x640 .f32 .bf16
  ∧ IdealRules.truncf_extf.Statement Cert.KernelIdeal.S192x640 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x192x56x56 : Shape := ⟨5, ![16, 4, 192, 56, 56]⟩
abbrev S16x3136x2 : Shape := ⟨3, ![16, 3136, 2]⟩
abbrev S_ : Shape := ⟨0, ![]⟩

class Facts : Prop where
  bcast_S_S16x4x192x56x56 : S_.BroadcastsInDim S16x4x192x56x56 (![] : Fin 0 → Fin S16x4x192x56x56.rank)
  reducesTo_S16x4x192x56x56_S_d0_1_2_3_4 : S16x4x192x56x56.ReducesTo [0, 1, 2, 3, 4] S_
  h_S_ : 0 < S_.numel

variable [Facts]

def fn {F : FTy → Type} [FloatOps F] (main_arg0 : FVec F S16x4x192x56x56 .f32) (main_arg1 : IVec S16x3136x2 32) : IVec S_ 1 :=
  let main_v0 : FVec F S16x4x192x56x56 .f32 := Host.absf main_arg0
  let main_cst : FVec F S_ .f32 := constant S_ .f32 0x7F800000#32
  let main_v1 : FVec F S16x4x192x56x56 .f32 := broadcastInDim S16x4x192x56x56 ![] bcast_S_S16x4x192x56x56 main_cst
  let main_v2 : IVec S16x4x192x56x56 1 := cmpf .olt main_v0 main_v1
  let main_c : IVec S_ 1 := constantI S_ 1 1#1
  let main_v3 : IVec S_ 1 := (fun x v => Host.reduce IntOp.andi x v reducesTo_S16x4x192x56x56_S_d0_1_2_3_4 h_S_) main_v2 main_c
  main_v3
-- ==== Kernel.lean ====
abbrev S16x4x192x56x56 : Shape := ⟨5, ![16, 4, 192, 56, 56]⟩
abbrev S16x3136x2 : Shape := ⟨3, ![16, 3136, 2]⟩
abbrev S16x2x3136 : Shape := ⟨3, ![16, 2, 3136]⟩
abbrev S16x4x192x3136 : Shape := ⟨4, ![16, 4, 192, 3136]⟩
abbrev S16x2x192x3136 : Shape := ⟨4, ![16, 2, 192, 3136]⟩
abbrev S_ : Shape := ⟨0, ![]⟩
abbrev S16x2x192x3200 : Shape := ⟨4, ![16, 2, 192, 3200]⟩
abbrev S16x2x3200 : Shape := ⟨3, ![16, 2, 3200]⟩
abbrev S16x192x3200 : Shape := ⟨3, ![16, 192, 3200]⟩
abbrev S1x2x192x3200 : Shape := ⟨4, ![1, 2, 192, 3200]⟩
abbrev S1x2x640 : Shape := ⟨3, ![1, 2, 640]⟩
abbrev S1x192x640 : Shape := ⟨3, ![1, 192, 640]⟩
abbrev S192x640 : Shape := ⟨2, ![192, 640]⟩
abbrev S640x640 : Shape := ⟨2, ![640, 640]⟩
abbrev S1x1x640 : Shape := ⟨3, ![1, 1, 640]⟩
abbrev S640 : Shape := ⟨1, ![640]⟩
abbrev S1x640 : Shape := ⟨2, ![1, 640]⟩
abbrev S1x1x192x640 : Shape := ⟨4, ![1, 1, 192, 640]⟩
abbrev S16x192x3136 : Shape := ⟨3, ![16, 192, 3136]⟩

abbrev nBuf : Space → Nat
  | .hbm => 19
  | .vmem => 6
  | .smem => 0
  | _ => 0

abbrev bufTy : (tb : Table) → Fin (tcTables nBuf tb) → BufTy
  | .hbm, ⟨0, _⟩ => ⟨S16x4x192x56x56, .f32⟩
  | .hbm, ⟨1, _⟩ => ⟨S16x3136x2, .i32⟩
  | .hbm, ⟨2, _⟩ => ⟨S16x3136x2, .i32⟩
  | .hbm, ⟨3, _⟩ => ⟨S16x3136x2, .i32⟩
  | .hbm, ⟨4, _⟩ => ⟨S16x3136x2, .i32⟩
  | .hbm, ⟨5, _⟩ => ⟨S16x2x3136, .i32⟩
  | .hbm, ⟨6, _⟩ => ⟨S16x4x192x3136, .f32⟩
  | .hbm, ⟨7, _⟩ => ⟨S16x2x192x3136, .f32⟩
  | .hbm, ⟨8, _⟩ => ⟨S16x2x192x3136, .f32⟩
  | .hbm, ⟨9, _⟩ => ⟨S16x2x192x3136, .f32⟩
  | .hbm, ⟨10, _⟩ => ⟨S16x2x192x3136, .f32⟩
  | .hbm, ⟨11, _⟩ => ⟨S_, .i32⟩
  | .hbm, ⟨12, _⟩ => ⟨S_, .f32⟩
  | .hbm, ⟨13, _⟩ => ⟨S16x2x192x3200, .f32⟩
  | .hbm, ⟨14, _⟩ => ⟨S_, .i32⟩
  | .hbm, ⟨15, _⟩ => ⟨S_, .i32⟩
  | .hbm, ⟨16, _⟩ => ⟨S16x2x3200, .i32⟩
  | .hbm, ⟨17, _⟩ => ⟨S16x192x3200, .f32⟩
  | .hbm, ⟨18, _⟩ => ⟨S16x192x3136, .f32⟩
  | .local _ .vmem, ⟨0, _⟩ => ⟨S1x2x192x3200, .f32⟩
  | .local _ .vmem, ⟨1, _⟩ => ⟨S1x2x192x3200, .f32⟩
  | .local _ .vmem, ⟨2, _⟩ => ⟨S1x2x640, .i32⟩
  | .local _ .vmem, ⟨3, _⟩ => ⟨S1x2x640, .i32⟩
  | .local _ .vmem, ⟨4, _⟩ => ⟨S1x192x640, .f32⟩
  | .local _ .vmem, ⟨5, _⟩ => ⟨S1x192x640, .f32⟩
  | _, _ => ⟨S16x4x192x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call2_v0 : Ref sig .tc := ⟨.hbm, 12, rfl⟩
abbrev main_v7 : Ref sig .tc := ⟨.hbm, 13, rfl⟩
abbrev main_c_0 : Ref sig .tc := ⟨.hbm, 14, rfl⟩
abbrev main_call3_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x192x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x640 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S16x3136x2_S16x2x3136_0_2_1 : S16x3136x2.Transposes [0, 2, 1] S16x2x3136
  shapeCasts_S16x4x192x56x56_S16x4x192x3136 : S16x4x192x56x56.ShapeCasts S16x4x192x3136
  slices_S16x4x192x3136_S16x2x192x3136_0_0_0_0 : S16x4x192x3136.Slices ![0, 0, 0, 0] S16x2x192x3136
  slices_S16x4x192x3136_S16x2x192x3136_0_2_0_0 : S16x4x192x3136.Slices ![0, 2, 0, 0] S16x2x192x3136
  pads_S16x2x192x3136_S16x2x192x3200_000_000_000_0640 : S16x2x192x3136.Pads (![0, 0, 0, 0] : Fin 4 → Nat) ![0, 0, 0, 64] ![0, 0, 0, 0] S16x2x192x3200
  h_S_ : 0 < S_.numel
  pads_S16x2x3136_S16x2x3200_000_000_0640 : S16x2x3136.Pads (![0, 0, 0] : Fin 3 → Nat) ![0, 0, 64] ![0, 0, 0] S16x2x3200
  inb_S1x192x640_S1x192x640_0_0_0 : ∀ a, (![0, 0, 0] : Fin 3 → Nat) a + S1x192x640.size a ≤ S1x192x640.size a
  h_S1x192x640 : 0 < S1x192x640.numel
  shapeCasts_S1x192x640_S192x640 : S1x192x640.ShapeCasts S192x640
  shapeCasts_S192x640_S1x192x640 : S192x640.ShapeCasts S1x192x640
  iota_S640x640_d0_w32 : S640x640.Iotas .tc 32 [0]
  inb_S1x2x640_S1x1x640_0_0_0 : ∀ a, (![0, 0, 0] : Fin 3 → Nat) a + S1x1x640.size a ≤ S1x2x640.size a
  h_S1x1x640 : 0 < S1x1x640.numel
  shapeCasts_S1x1x640_S640 : S1x1x640.ShapeCasts S640
  shapeCasts_S640_S1x640 : S640.ShapeCasts S1x640
  broadcasts_S1x640_S640x640 : S1x640.Broadcasts S640x640
  natLt_1_32 : 1 < 32
  bitsLt_bf16_f32 : FTy.bits .bf16 < FTy.bits .f32
  inb_S1x2x192x3200_S1x1x192x640_0_0_0_0 : ∀ a, (![0, 0, 0, 0] : Fin 4 → Nat) a + S1x1x192x640.size a ≤ S1x2x192x3200.size a
  h_S1x1x192x640 : 0 < S1x1x192x640.numel
  shapeCasts_S1x1x192x640_S192x640 : S1x1x192x640.ShapeCasts S192x640
  inb_S1x2x640_S1x1x640_0_1_0 : ∀ a, (![0, 1, 0] : Fin 3 → Nat) a + S1x1x640.size a ≤ S1x2x640.size a
  inb_S1x2x192x3200_S1x1x192x640_0_1_0_0 : ∀ a, (![0, 1, 0, 0] : Fin 4 → Nat) a + S1x1x192x640.size a ≤ S1x2x192x3200.size a
  inb_S1x2x192x3200_S1x1x192x640_0_0_0_640 : ∀ a, (![0, 0, 0, 640] : Fin 4 → Nat) a + S1x1x192x640.size a ≤ S1x2x192x3200.size a
  inb_S1x2x192x3200_S1x1x192x640_0_1_0_640 : ∀ a, (![0, 1, 0, 640] : Fin 4 → Nat) a + S1x1x192x640.size a ≤ S1x2x192x3200.size a
  inb_S1x2x192x3200_S1x1x192x640_0_0_0_1280 : ∀ a, (![0, 0, 0, 1280] : Fin 4 → Nat) a + S1x1x192x640.size a ≤ S1x2x192x3200.size a
  inb_S1x2x192x3200_S1x1x192x640_0_1_0_1280 : ∀ a, (![0, 1, 0, 1280] : Fin 4 → Nat) a + S1x1x192x640.size a ≤ S1x2x192x3200.size a
  inb_S1x2x192x3200_S1x1x192x640_0_0_0_1920 : ∀ a, (![0, 0, 0, 1920] : Fin 4 → Nat) a + S1x1x192x640.size a ≤ S1x2x192x3200.size a
  inb_S1x2x192x3200_S1x1x192x640_0_1_0_1920 : ∀ a, (![0, 1, 0, 1920] : Fin 4 → Nat) a + S1x1x192x640.size a ≤ S1x2x192x3200.size a
  inb_S1x2x192x3200_S1x1x192x640_0_0_0_2560 : ∀ a, (![0, 0, 0, 2560] : Fin 4 → Nat) a + S1x1x192x640.size a ≤ S1x2x192x3200.size a
  inb_S1x2x192x3200_S1x1x192x640_0_1_0_2560 : ∀ a, (![0, 1, 0, 2560] : Fin 4 → Nat) a + S1x1x192x640.size a ≤ S1x2x192x3200.size a
  slices_S16x192x3200_S16x192x3136_0_0_0 : S16x192x3200.Slices ![0, 0, 0] S16x192x3136
  dot_S192x640_S640x640_S192x640_1_0_0_1_n_n_wf : DotDims.WF S192x640 S640x640 S192x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x192x3200.size a ≤ S16x2x192x3200.size a
  hwx0_0 : ∀ i : grid0.Coords, EltTy.bits .f32 = 32 ∨ (Rect.block (s := S16x2x192x3200) S1x2x192x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x640.size a ≤ S16x2x3200.size a
  hwx0_1 : ∀ i : grid0.Coords, EltTy.bits .i32 = 32 ∨ (Rect.block (s := S16x2x3200) S1x2x640.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x192x640.size a ≤ S16x192x3200.size a
  hwx0_2 : ∀ i : grid0.Coords, EltTy.bits .f32 = 32 ∨ (Rect.block (s := S16x192x3200) S1x192x640.size (cc0_transform_2 i) (hinb0_2 i)).WholeWords (EltTy.packing .f32)

variable [Facts₀]

def comparator_i32_i32_d1 : BitVec 32 × BitVec 32 → BitVec 32 × BitVec 32 → BitVec 1 :=
  fun l r =>
    let v2 := IntOp.cmpi .slt l.1 r.1
    v2
def dot_S192x640_S640x640_S192x640_1_0_0_1_n_n : DotDims S192x640 S640x640 S192x640 where
  lhsContracting := [1]
  rhsContracting := [0]
  lhsNonContracting := [0]
  rhsNonContracting := [1]
  lhsBatch := []
  rhsBatch := []
  wf := dot_S192x640_S640x640_S192x640_1_0_0_1_n_n_wf

abbrev win0_0 : Pipeline.Window sig grid0 :=
  Pipeline.Window.ofSpec (Memref.whole main_v7) S1x2x192x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x2x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x192x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4x192x56x56 : Shape := ⟨5, ![16, 4, 192, 56, 56]⟩
abbrev S16x3136x2 : Shape := ⟨3, ![16, 3136, 2]⟩
abbrev S16x2x3136 : Shape := ⟨3, ![16, 2, 3136]⟩
abbrev S16x2x1x3136 : Shape := ⟨4, ![16, 2, 1, 3136]⟩
abbrev S16x2x192x56x56 : Shape := ⟨5, ![16, 2, 192, 56, 56]⟩
abbrev S16x2x192x3136 : Shape := ⟨4, ![16, 2, 192, 3136]⟩
abbrev S_ : Shape := ⟨0, ![]⟩
abbrev S16x2x3136x1 : Shape := ⟨4, ![16, 2, 3136, 1]⟩
abbrev S1 : Shape := ⟨1, ![1]⟩
abbrev S1x1x1x1 : Shape := ⟨4, ![1, 1, 1, 1]⟩
abbrev S16x192x3136 : Shape := ⟨3, ![16, 192, 3136]⟩

abbrev nBuf : Space → Nat
  | .hbm => 61
  | .vmem => 0
  | .smem => 0
  | _ => 0

abbrev bufTy : (tb : Table) → Fin (tcTables nBuf tb) → BufTy
  | .hbm, ⟨0, _⟩ => ⟨S16x4x192x56x56, .f32⟩
  | .hbm, ⟨1, _⟩ => ⟨S16x3136x2, .i32⟩
  | .hbm, ⟨2, _⟩ => ⟨S16x3136x2, .i32⟩
  | .hbm, ⟨3, _⟩ => ⟨S16x3136x2, .i32⟩
  | .hbm, ⟨4, _⟩ => ⟨S16x3136x2, .i32⟩
  | .hbm, ⟨5, _⟩ => ⟨S16x2x3136, .i32⟩
  | .hbm, ⟨6, _⟩ => ⟨S16x2x1x3136, .i32⟩
  | .hbm, ⟨7, _⟩ => ⟨S16x2x192x56x56, .f32⟩
  | .hbm, ⟨8, _⟩ => ⟨S16x2x192x3136, .f32⟩
  | .hbm, ⟨9, _⟩ => ⟨S_, .i32⟩
  | .hbm, ⟨10, _⟩ => ⟨S16x2x1x3136, .i32⟩
  | .hbm, ⟨11, _⟩ => ⟨S16x2x1x3136, .i1⟩
  | .hbm, ⟨12, _⟩ => ⟨S_, .i32⟩
  | .hbm, ⟨13, _⟩ => ⟨S16x2x1x3136, .i32⟩
  | .hbm, ⟨14, _⟩ => ⟨S16x2x1x3136, .i32⟩
  | .hbm, ⟨15, _⟩ => ⟨S16x2x1x3136, .i32⟩
  | .hbm, ⟨16, _⟩ => ⟨S16x2x3136x1, .i32⟩
  | .hbm, ⟨17, _⟩ => ⟨S1, .i32⟩
  | .hbm, ⟨18, _⟩ => ⟨S_, .i32⟩
  | .hbm, ⟨19, _⟩ => ⟨S16x2x3136x1, .i32⟩
  | .hbm, ⟨20, _⟩ => ⟨S16x2x3136x1, .i1⟩
  | .hbm, ⟨21, _⟩ => ⟨S1x1x1x1, .i32⟩
  | .hbm, ⟨22, _⟩ => ⟨S16x2x3136x1, .i32⟩
  | .hbm, ⟨23, _⟩ => ⟨S16x2x3136x1, .i1⟩
  | .hbm, ⟨24, _⟩ => ⟨S16x2x3136x1, .i1⟩
  | .hbm, ⟨25, _⟩ => ⟨S_, .i1⟩
  | .hbm, ⟨26, _⟩ => ⟨S16x2x3136, .i1⟩
  | .hbm, ⟨27, _⟩ => ⟨S16x2x192x3136, .f32⟩
  | .hbm, ⟨28, _⟩ => ⟨S16x2x192x3136, .i1⟩
  | .hbm, ⟨29, _⟩ => ⟨S_, .f32⟩
  | .hbm, ⟨30, _⟩ => ⟨S16x2x192x3136, .f32⟩
  | .hbm, ⟨31, _⟩ => ⟨S16x2x192x3136, .f32⟩
  | .hbm, ⟨32, _⟩ => ⟨S16x2x192x56x56, .f32⟩
  | .hbm, ⟨33, _⟩ => ⟨S16x2x192x3136, .f32⟩
  | .hbm, ⟨34, _⟩ => ⟨S16x2x192x3136, .f32⟩
  | .hbm, ⟨35, _⟩ => ⟨S_, .i32⟩
  | .hbm, ⟨36, _⟩ => ⟨S16x2x1x3136, .i32⟩
  | .hbm, ⟨37, _⟩ => ⟨S16x2x1x3136, .i1⟩
  | .hbm, ⟨38, _⟩ => ⟨S_, .i32⟩
  | .hbm, ⟨39, _⟩ => ⟨S16x2x1x3136, .i32⟩
  | .hbm, ⟨40, _⟩ => ⟨S16x2x1x3136, .i32⟩
  | .hbm, ⟨41, _⟩ => ⟨S16x2x1x3136, .i32⟩
  | .hbm, ⟨42, _⟩ => ⟨S16x2x3136x1, .i32⟩
  | .hbm, ⟨43, _⟩ => ⟨S1, .i32⟩
  | .hbm, ⟨44, _⟩ => ⟨S_, .i32⟩
  | .hbm, ⟨45, _⟩ => ⟨S16x2x3136x1, .i32⟩
  | .hbm, ⟨46, _⟩ => ⟨S16x2x3136x1, .i1⟩
  | .hbm, ⟨47, _⟩ => ⟨S1x1x1x1, .i32⟩
  | .hbm, ⟨48, _⟩ => ⟨S16x2x3136x1, .i32⟩
  | .hbm, ⟨49, _⟩ => ⟨S16x2x3136x1, .i1⟩
  | .hbm, ⟨50, _⟩ => ⟨S16x2x3136x1, .i1⟩
  | .hbm, ⟨51, _⟩ => ⟨S_, .i1⟩
  | .hbm, ⟨52, _⟩ => ⟨S16x2x3136, .i1⟩
  | .hbm, ⟨53, _⟩ => ⟨S16x2x192x3136, .f32⟩
  | .hbm, ⟨54, _⟩ => ⟨S16x2x192x3136, .i1⟩
  | .hbm, ⟨55, _⟩ => ⟨S_, .f32⟩
  | .hbm, ⟨56, _⟩ => ⟨S16x2x192x3136, .f32⟩
  | .hbm, ⟨57, _⟩ => ⟨S16x2x192x3136, .f32⟩
  | .hbm, ⟨58, _⟩ => ⟨S16x2x192x3136, .f32⟩
  | .hbm, ⟨59, _⟩ => ⟨S_, .f32⟩
  | .hbm, ⟨60, _⟩ => ⟨S16x192x3136, .f32⟩
  | _, _ => ⟨S16x4x192x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_c_1 : Ref sig .tc := ⟨.hbm, 17, rfl⟩
abbrev main_call1_c_2 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_3 : Ref sig .tc := ⟨.hbm, 25, rfl⟩
abbrev main_call1_v12 : Ref sig .tc := ⟨.hbm, 26, rfl⟩
abbrev main_call1_v13 : Ref sig .tc := ⟨.hbm, 27, rfl⟩
abbrev main_call1_v14 : Ref sig .tc := ⟨.hbm, 28, rfl⟩
abbrev main_call1_cst : Ref sig .tc := ⟨.hbm, 29, rfl⟩
abbrev main_call1_v15 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_call3_c : Ref sig .tc := ⟨.hbm, 35, rfl⟩
abbrev main_call3_v0 : Ref sig .tc := ⟨.hbm, 36, rfl⟩
abbrev main_call3_v1 : Ref sig .tc := ⟨.hbm, 37, rfl⟩
abbrev main_call3_c_0 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_c_1 : Ref sig .tc := ⟨.hbm, 43, rfl⟩
abbrev main_call3_c_2 : Ref sig .tc := ⟨.hbm, 44, rfl⟩
abbrev main_call3_v6 : Ref sig .tc := ⟨.hbm, 45, rfl⟩
abbrev main_call3_v7 : Ref sig .tc := ⟨.hbm, 46, rfl⟩
abbrev main_call3_v8 : Ref sig .tc := ⟨.hbm, 47, rfl⟩
abbrev main_call3_v9 : Ref sig .tc := ⟨.hbm, 48, rfl⟩
abbrev main_call3_v10 : Ref sig .tc := ⟨.hbm, 49, rfl⟩
abbrev main_call3_v11 : Ref sig .tc := ⟨.hbm, 50, rfl⟩
abbrev main_call3_c_3 : Ref sig .tc := ⟨.hbm, 51, rfl⟩
abbrev main_call3_v12 : Ref sig .tc := ⟨.hbm, 52, rfl⟩
abbrev main_call3_v13 : Ref sig .tc := ⟨.hbm, 53, rfl⟩
abbrev main_call3_v14 : Ref sig .tc := ⟨.hbm, 54, rfl⟩
abbrev main_call3_cst : Ref sig .tc := ⟨.hbm, 55, rfl⟩
abbrev main_call3_v15 : Ref sig .tc := ⟨.hbm, 56, rfl⟩
abbrev main_v9 : Ref sig .tc := ⟨.hbm, 57, rfl⟩
abbrev main_v10 : Ref sig .tc := ⟨.hbm, 58, rfl⟩
abbrev main_cst : Ref sig .tc := ⟨.hbm, 59, rfl⟩
abbrev main_v11 : Ref sig .tc := ⟨.hbm, 60, rfl⟩

abbrev nD : Nat := 1
abbrev τ : Topo := Topo.v7x

variable {F : FTy → Type} [FloatOps F]

class Facts₀ : Prop where
  transposes_S16x3136x2_S16x2x3136_0_2_1 : S16x3136x2.Transposes [0, 2, 1] S16x2x3136
  bcast_S16x2x3136_S16x2x1x3136_0_1_3 : S16x2x3136.BroadcastsInDim S16x2x1x3136 (![0, 1, 3] : Fin 3 → Fin S16x2x1x3136.rank)
  slices_S16x4x192x56x56_S16x2x192x56x56_0_0_0_0_0 : S16x4x192x56x56.Slices ![0, 0, 0, 0, 0] S16x2x192x56x56
  shapeCasts_S16x2x192x56x56_S16x2x192x3136 : S16x2x192x56x56.ShapeCasts S16x2x192x3136
  bcast_S_S16x2x1x3136 : S_.BroadcastsInDim S16x2x1x3136 (![] : Fin 0 → Fin S16x2x1x3136.rank)
  shapeCasts_S16x2x1x3136_S16x2x3136x1 : S16x2x1x3136.ShapeCasts S16x2x3136x1
  bcast_S_S16x2x3136x1 : S_.BroadcastsInDim S16x2x3136x1 (![] : Fin 0 → Fin S16x2x3136x1.rank)
  bcast_S1_S1x1x1x1_3 : S1.BroadcastsInDim S1x1x1x1 (![3] : Fin 1 → Fin S1x1x1x1.rank)
  bcast_S1x1x1x1_S16x2x3136x1_0_1_2_3 : S1x1x1x1.BroadcastsInDim S16x2x3136x1 (![0, 1, 2, 3] : Fin 4 → Fin S16x2x3136x1.rank)
  reducesTo_S16x2x3136x1_S16x2x3136_d3 : S16x2x3136x1.ReducesTo [3] S16x2x3136
  h_S_ : 0 < S_.numel
  bcast_S16x2x3136_S16x2x192x3136_0_1_3 : S16x2x3136.BroadcastsInDim S16x2x192x3136 (![0, 1, 3] : Fin 3 → Fin S16x2x192x3136.rank)
  bcast_S_S16x2x192x3136 : S_.BroadcastsInDim S16x2x192x3136 (![] : Fin 0 → Fin S16x2x192x3136.rank)
  slices_S16x4x192x56x56_S16x2x192x56x56_0_2_0_0_0 : S16x4x192x56x56.Slices ![0, 2, 0, 0, 0] S16x2x192x56x56
  reducesTo_S16x2x192x3136_S16x192x3136_d1 : S16x2x192x3136.ReducesTo [1] S16x192x3136
  gather_S16x2x192x3136_S16x2x3136x1_S16x2x192x3136_2_3_01_01_3_3_111921_wf : GatherDims.WF S16x2x192x3136 S16x2x3136x1 S16x2x192x3136 [2] [3] [0, 1] [3] [0, 1] 3 ![1, 1, 192, 1]

variable [Facts₀]

def comparator_i32_i32_d1 : BitVec 32 × BitVec 32 → BitVec 32 × BitVec 32 → BitVec 1 :=
  fun l r =>
    let v2 := IntOp.cmpi .slt l.1 r.1
    v2
def gather_S16x2x192x3136_S16x2x3136x1_S16x2x192x3136_2_3_01_01_3_3_111921 : GatherDims S16x2x192x3136 S16x2x3136x1 S16x2x192x3136 where
  offsetDims := [2]
  collapsedSliceDims := [3]
  operandBatchingDims := [0, 1]
  startIndicesBatchingDims := [0, 1]
  startIndexMap := [3]
  indexVectorDim := 3
  sliceSizes := ![1, 1, 192, 1]
  wf := gather_S16x2x192x3136_S16x2x3136x1_S16x2x192x3136_2_3_01_01_3_3_111921_wf

class Facts : Prop extends Facts₀ where

variable [Facts]
-- ==== Proof.Spec.lean ====
/-
  What both programs compute, as one function of the two argument arrays.

  `ys : [16, 4, 192, 56, 56]` holds, for each batch element `b` and each of four scan directions `k`, 192 feature rows `d`
  over a 56 × 56 plane; `plane ys b k d p` is the plane read at its row-major position `p = 56·r + c`. Directions 0 and 1
  are scanned forwards, directions 2 and 3 backwards, so the value that belongs at plane position `p` of the pair
  `k ∈ {0, 1}` is `merged ys b k d p = plane ys b k d p + plane ys b (k + 2) d (3135 − p)`.

  `perm : [16, 3136, 2]` is an array of plane positions (in the programs: the argsort of the second argument along its
  middle axis, which this file never mentions — the result is a function of `perm` whatever it is). The result at
  `(b, d, l)` gathers each pair through its own column of `perm` and sums the two pairs:

      result ys perm (b, d, l) = Σ_{k < 2} merged ys b k d (perm (b, l, k)).
-/
import Idealize.ShloMosaic.PureOps.Ideal
import Idealize.ShloMosaic.Lib.ValueIdx

noncomputable section

namespace Cert.CrossMerge

open Idealize.ShloMosaic Idealize.ShloMosaic.ValueIdx

/-- The shapes of the two arguments and of the result. -/
abbrev SYs : Shape := ⟨5, ![16, 4, 192, 56, 56]⟩
abbrev SPerm : Shape := ⟨3, ![16, 3136, 2]⟩
abbrev SRes : Shape := ⟨3, ![16, 192, 3136]⟩

/-- The 56 × 56 plane of batch element `b`, direction `k`, row `d`, read at its row-major position `p`
    (total in `p`: a position past the plane is read modulo the plane's sides, and is never used). -/
def plane (ys : FVec Ideal SYs .f32) (b : Fin 16) (k : Fin 4) (d : Fin 192) (p : ℕ) : EReal :=
  ys (ix5 b k d (⟨p / 56 % 56, Nat.mod_lt _ (by norm_num)⟩ : Fin 56) (⟨p % 56, Nat.mod_lt _ (by norm_num)⟩ : Fin 56))

/-- The forward direction `k` at position `p` plus the backward direction `k + 2` at the mirrored position. -/
def merged (ys : FVec Ideal SYs .f32) (b : Fin 16) (k : Fin 2) (d : Fin 192) (p : ℕ) : EReal :=
  plane ys b (⟨k.val, by omega⟩ : Fin 4) d p + plane ys b (⟨k.val + 2, by omega⟩ : Fin 4) d (3135 - p)

/-- The result at batch element `b`, row `d`, output position `l`. -/
def resultAt (ys : FVec Ideal SYs .f32) (perm : IVec SPerm 32) (b : Fin 16) (d : Fin 192) (l : Fin 3136) : EReal :=
  ∑ k : Fin 2, merged ys b k d (perm (ix3 b l k)).toNat

/-- The result array. -/
def result (ys : FVec Ideal SYs .f32) (perm : IVec SPerm 32) : FVec Ideal SRes .f32 := fun j =>
  resultAt ys perm (⟨(j 0).val, (j 0).isLt⟩ : Fin 16) (⟨(j 1).val, (j 1).isLt⟩ : Fin 192) (⟨(j 2).val, (j 2).isLt⟩ : Fin 3136)

theorem result_ix3 (ys : FVec Ideal SYs .f32) (perm : IVec SPerm 32) (b : Fin 16) (d : Fin 192) (l : Fin 3136) :
    result ys perm (ix3 b d l) = resultAt ys perm b d l := rfl

/-- The two pairs written out. -/
theorem resultAt_eq (ys : FVec Ideal SYs .f32) (perm : IVec SPerm 32) (b : Fin 16) (d : Fin 192) (l : Fin 3136) :
    resultAt ys perm b d l
      = merged ys b 0 d (perm (ix3 b l (0 : Fin 2))).toNat + merged ys b 1 d (perm (ix3 b l (1 : Fin 2))).toNat := by
  unfold resultAt
  rw [Fin.sum_univ_two]

end Cert.CrossMerge

end
-- ==== Proof.RefValue.lean ====
/-
  The reference's last stage is `result` of the first argument and the argsort's positions.

  The reference gathers the forward pair of directions, and the reversed backward pair, along the plane through the
  transposed positions; a gathered entry is kept where its position lies in `[0, 3135]` (after a negative position has
  had 3136 added) and replaced by a junk value otherwise; the two gathers are added and the two pairs summed from 0.
  Every position the argsort returns is in range, so nothing is replaced and no position is shifted, and the clamped
  start of each one-element slice is the position itself. The gather of the flattened forward pair at `(b, k, d, l)`
  is therefore `plane ys b k d p` and that of the reversed backward pair `plane ys b (k + 2) d (3135 − p)`, with
  `p = perm (b, l, k)`; their sum is `merged ys b k d p`, and `0 + Σ_k` of these is `result ys perm (b, d, l)`.
-/
import proofs.«421471_j34059090657946_3_alg».proof.Proof.RefRead
import proofs.«421471_j34059090657946_3_alg».proof.Proof.Spec
import Idealize.ShloMosaic.Lib.ValueIdx
import Idealize.ShloMosaic.Lib.ValueLayout
import Idealize.ShloMosaic.Lib.Pipeline.Value
import Idealize.ShloMosaic.Lib.ReduceAll
import Idealize.ShloMosaic.Lib.Affine
import Idealize.ShloMosaic.PureOps.Reduce
import Idealize.ShloMosaic.PureOps.Ideal.Laws

noncomputable section

namespace Cert.ReferenceIdeal.RefValue

open Idealize.ShloMosaic Idealize.ShloMosaic.ValueIdx Idealize.SL.Sem
open Cert.ReferenceIdeal Cert.ReferenceIdeal.Gen Cert.ReferenceIdeal.ReadP Cert.CrossMerge

/-- The reference's argsort positions, as a function of the second argument. -/
abbrev refPerm (x1 : IVec S16x3136x2 32) : IVec SPerm 32 :=
  (Host.sort2 S16x3136x2 1 comparator_i32_i32_d1 x1 (iotaInDim S16x3136x2 32 1)).2

/-! ## Words: a position below 3136 read signed -/

/-- A word below 3136 read as a signed number is its own value. -/
theorem toInt_of_lt (w : BitVec 32) (h : w.toNat < 3136) : w.toInt = (w.toNat : Int) :=
  BitVec.toInt_eq_toNat_of_lt (by omega)

/-- A position below 3136 is not negative, so the wrap-around select keeps it. -/
theorem wrap_select (w : BitVec 32) (h : w.toNat < 3136) :
    Scalar.select (IntOp.cmpi .slt w 0#32) (IntOp.addi w 3136#32) w = w := by
  have h0 : IntOp.cmpi .slt w 0#32 = 0#1 := eq_zero_of_ne_one fun e => by
    have hs := IntOp.cmpi_slt.mp e
    rw [toInt_of_lt w h, show (0#32 : BitVec 32).toInt = 0 from by decide] at hs
    omega
  rw [h0, select_zero]

/-- A position below 3136 passes both range tests. -/
theorem range_test (w : BitVec 32) (h : w.toNat < 3136) :
    IntOp.andi (IntOp.cmpi .sge w 0#32) (IntOp.cmpi .sle w 3135#32) = 1#1 := by
  refine IntOp.andi_eq_one.mpr ⟨IntOp.cmpi_sge.mpr ?_, IntOp.cmpi_sle.mpr ?_⟩
  · rw [toInt_of_lt w h, show (0#32 : BitVec 32).toInt = 0 from by decide]; omega
  · rw [toInt_of_lt w h, show (3135#32 : BitVec 32).toInt = 3135 from by decide]; omega

/-! ## The `and`-fold over the size-one axis -/

/-- A fold over the one coordinate of an axis of extent one is one application of the operation. -/
theorem fold_fin_one {β : Type} (op : β → β → β) [Std.Commutative op] [Std.Associative op] (c : β) (f : Fin 1 → β) :
    (Finset.univ : Finset (Fin 1)).fold op c f = op (f 0) c := by
  rw [show (Finset.univ : Finset (Fin 1)) = {0} from rfl, Finset.fold_singleton]

/-- An `and`-reduction from 1 over the last axis, of extent one, is its one element. -/
theorem reduce_and_unit (x : IVec S16x2x3136x1 1) (init : IVec S_ 1) (hinit : init (Shape.Idx.first h_S_) = 1#1)
    (b : Fin 16) (k : Fin 2) (l : Fin 3136) :
    Host.reduce IntOp.andi x init reducesTo_S16x2x3136x1_S16x2x3136_d3 h_S_ (ix3 b k l) = x (ix4 b k l (0 : Fin 1)) := by
  have hr : S16x2x3136x1.Reduces [3] S16x2x3136 := by decide
  rw [Host.reduce_eq_fold_single IntOp.andi x init reducesTo_S16x2x3136x1_S16x2x3136_d3 hr h_S_, hinit]
  refine (fold_fin_one IntOp.andi 1#1 (x ∘ hr.lift (ix3 b k l))).trans ?_
  have hi : hr.lift (ix3 b k l) (0 : Fin 1) = ix4 b k l (0 : Fin 1) := by
    funext a; refine Fin.ext ?_
    match a with
    | ⟨0, _⟩ => rfl
    | ⟨1, _⟩ => rfl
    | ⟨2, _⟩ => rfl
    | ⟨3, _⟩ => rfl
  show IntOp.andi (x (hr.lift (ix3 b k l) (0 : Fin 1))) 1#1 = _
  rw [hi]
  generalize x (ix4 b k l (0 : Fin 1)) = c
  revert c; decide

/-! ## The gather along the plane -/

/-- The reference's gather: batching axes 0 and 1, offset axis 2, a one-element slice on the collapsed axis 3. -/
abbrev planeGather : GatherDims S16x2x192x3136 S16x2x3136x1 S16x2x192x3136 :=
  gather_S16x2x192x3136_S16x2x3136x1_S16x2x192x3136_2_3_01_01_3_3_111921

/-- On the first batching axis the operand index is the result's batch element. -/
theorem operandIdx_0 (idx : IVec S16x2x3136x1 32) (b : Fin 16) (k : Fin 2) (d : Fin 192) (l : Fin 3136) :
    (planeGather.operandIdx (ix4 b k d l) idx (0 : Fin 4)).val = b.val := by
  have m : (0 : Fin 4) ∈ planeGather.operandBatchingDims := by decide
  show planeGather.start _ idx _ + planeGather.batchCoord _ _ + planeGather.offCoord _ _ = _
  rw [planeGather.start_batching _ idx _ m, planeGather.offCoord_eq_zero _ _ (fun hm => ((planeGather.mem_sKept _).1 hm).2 m)]
  unfold GatherDims.batchCoord
  rw [dif_pos m, Nat.zero_add, Nat.add_zero]
  rfl

/-- On the second batching axis the operand index is the result's direction. -/
theorem operandIdx_1 (idx : IVec S16x2x3136x1 32) (b : Fin 16) (k : Fin 2) (d : Fin 192) (l : Fin 3136) :
    (planeGather.operandIdx (ix4 b k d l) idx (1 : Fin 4)).val = k.val := by
  have m : (1 : Fin 4) ∈ planeGather.operandBatchingDims := by decide
  show planeGather.start _ idx _ + planeGather.batchCoord _ _ + planeGather.offCoord _ _ = _
  rw [planeGather.start_batching _ idx _ m, planeGather.offCoord_eq_zero _ _ (fun hm => ((planeGather.mem_sKept _).1 hm).2 m)]
  unfold GatherDims.batchCoord
  rw [dif_pos m, Nat.zero_add, Nat.add_zero]
  rfl

/-- On the offset axis the operand index is the result's row. -/
theorem operandIdx_2 (idx : IVec S16x2x3136x1 32) (b : Fin 16) (k : Fin 2) (d : Fin 192) (l : Fin 3136) :
    (planeGather.operandIdx (ix4 b k d l) idx (2 : Fin 4)).val = d.val := by
  have m : (2 : Fin 4) ∈ planeGather.sKept := by decide
  show planeGather.start _ idx _ + planeGather.batchCoord _ _ + planeGather.offCoord _ _ = _
  rw [planeGather.batchCoord_eq_zero _ _ (by decide)]
  unfold GatherDims.start GatherDims.offCoord
  rw [dif_neg (by decide), dif_pos m, Nat.zero_add]
  rfl

/-- On the collapsed axis the operand index is the clamped start, which a position below 3136 is itself. -/
theorem operandIdx_3 (idx : IVec S16x2x3136x1 32) (b : Fin 16) (k : Fin 2) (d : Fin 192) (l : Fin 3136)
    (w : BitVec 32) (hw : idx (ix4 b k l (0 : Fin 1)) = w) (h : w.toNat < 3136) :
    (planeGather.operandIdx (ix4 b k d l) idx (3 : Fin 4)).val = w.toNat := by
  have m : (3 : Fin 4) ∈ planeGather.startIndexMap := by decide
  show planeGather.start _ idx _ + planeGather.batchCoord _ _ + planeGather.offCoord _ _ = _
  rw [planeGather.batchCoord_eq_zero _ _ (by decide),
    planeGather.offCoord_eq_zero _ _ (fun hm => ((planeGather.mem_sKept _).1 hm).1 (by decide))]
  unfold GatherDims.start
  rw [dif_pos m]
  have hsi : planeGather.siIdx (ix4 b k d l) ⟨List.idxOf (3 : Fin 4) planeGather.startIndexMap, List.idxOf_lt_length_iff.2 m⟩
      = ix4 b k l (0 : Fin 1) := by
    funext c; refine Fin.ext ?_
    match c with
    | ⟨0, _⟩ => rfl
    | ⟨1, _⟩ => rfl
    | ⟨2, _⟩ => rfl
    | ⟨3, _⟩ => rfl
  rw [hsi, hw]
  show min w.toInt.toNat (3136 - 1) + 0 + 0 = w.toNat
  rw [toInt_of_lt w h]
  omega

/-- The gather read at `(b, k, d, l)`: the operand at `(b, k, d, p)`, `p` the position the index array holds at `(b, k, l)`. -/
theorem gather_at {α : Type} (x : S16x2x192x3136.Idx → α) (idx : IVec S16x2x3136x1 32)
    (b : Fin 16) (k : Fin 2) (d : Fin 192) (l : Fin 3136) (w : BitVec 32)
    (hw : idx (ix4 b k l (0 : Fin 1)) = w) (h : w.toNat < 3136) :
    Host.gather planeGather x idx (ix4 b k d l) = x (ix4 b k d (⟨w.toNat, h⟩ : Fin 3136)) := by
  unfold Host.gather
  refine congrArg x (funext fun a => Fin.ext ?_)
  match a with
  | ⟨0, _⟩ => exact operandIdx_0 idx b k d l
  | ⟨1, _⟩ => exact operandIdx_1 idx b k d l
  | ⟨2, _⟩ => exact operandIdx_2 idx b k d l
  | ⟨3, _⟩ => exact operandIdx_3 idx b k d l w hw h

/-! ## The two operands of the gathers, as planes -/

/-- The forward pair flattened, read at `(b, k, d, p)`, is the plane of direction `k` at position `p`. -/
theorem fwd_at (x0 : FVec Ideal S16x4x192x56x56 .f32) (b : Fin 16) (k : Fin 2) (d : Fin 192) (p : Fin 3136) :
    val_main_v4 (F := Ideal) x0 (ix4 b k d p) = plane x0 b (⟨k.val, by omega⟩ : Fin 4) d p.val := by
  rw [val_main_v4_apply, val_main_v3_apply]
  unfold plane
  refine congrArg x0 (funext fun a => Fin.ext ?_)
  have hb := b.isLt; have hk := k.isLt; have hd := d.isLt; have hp := p.isLt
  match a with
  | ⟨0, _⟩ => show (((b.val * 2 + k.val) * 192 + d.val) * 3136 + p.val) / 1204224 = b.val; omega
  | ⟨1, _⟩ => show (((b.val * 2 + k.val) * 192 + d.val) * 3136 + p.val) / 602112 % 2 = k.val; omega
  | ⟨2, _⟩ => show (((b.val * 2 + k.val) * 192 + d.val) * 3136 + p.val) / 3136 % 192 = d.val; omega
  | ⟨3, _⟩ => show (((b.val * 2 + k.val) * 192 + d.val) * 3136 + p.val) / 56 % 56 = p.val / 56 % 56; omega
  | ⟨4, _⟩ => show (((b.val * 2 + k.val) * 192 + d.val) * 3136 + p.val) % 56 = p.val % 56; omega

/-- The backward pair flattened, read at `(b, k, d, p)`, is the plane of direction `k + 2` at position `p`. -/
theorem bwd_at (x0 : FVec Ideal S16x4x192x56x56 .f32) (b : Fin 16) (k : Fin 2) (d : Fin 192) (p : Fin 3136) :
    val_main_v7 (F := Ideal) x0 (ix4 b k d p) = plane x0 b (⟨k.val + 2, by omega⟩ : Fin 4) d p.val := by
  rw [val_main_v7_apply, val_main_v6_apply]
  unfold plane
  refine congrArg x0 (funext fun a => Fin.ext ?_)
  have hb := b.isLt; have hk := k.isLt; have hd := d.isLt; have hp := p.isLt
  match a with
  | ⟨0, _⟩ => show (((b.val * 2 + k.val) * 192 + d.val) * 3136 + p.val) / 1204224 = b.val; omega
  | ⟨1, _⟩ => show 2 + (((b.val * 2 + k.val) * 192 + d.val) * 3136 + p.val) / 602112 % 2 = k.val + 2; omega
  | ⟨2, _⟩ => show (((b.val * 2 + k.val) * 192 + d.val) * 3136 + p.val) / 3136 % 192 = d.val; omega
  | ⟨3, _⟩ => show (((b.val * 2 + k.val) * 192 + d.val) * 3136 + p.val) / 56 % 56 = p.val / 56 % 56; omega
  | ⟨4, _⟩ => show (((b.val * 2 + k.val) * 192 + d.val) * 3136 + p.val) % 56 = p.val % 56; omega

/-- The reversal along the plane reads position `3135 − p`. -/
theorem rev_at (x0 : FVec Ideal S16x4x192x56x56 .f32) (b : Fin 16) (k : Fin 2) (d : Fin 192) (p : Fin 3136) :
    val_main_v8 (F := Ideal) x0 (ix4 b k d p)
      = val_main_v7 (F := Ideal) x0 (ix4 b k d (⟨3135 - p.val, by omega⟩ : Fin 3136)) := by
  unfold val_main_v8 Host.reverse
  refine congrArg (val_main_v7 (F := Ideal) x0) (funext fun a => ?_)
  have n0 : (0 : Fin 4) ∉ [(3 : Fin 4)] := by decide
  have n1 : (1 : Fin 4) ∉ [(3 : Fin 4)] := by decide
  have n2 : (2 : Fin 4) ∉ [(3 : Fin 4)] := by decide
  have n3 : (3 : Fin 4) ∈ [(3 : Fin 4)] := by decide
  match a with
  | ⟨0, _⟩ => exact if_neg n0
  | ⟨1, _⟩ => exact if_neg n1
  | ⟨2, _⟩ => exact if_neg n2
  | ⟨3, _⟩ =>
    refine (if_pos n3).trans (Fin.ext ?_)
    show 3136 - (p.val + 1) = 3135 - p.val
    omega

/-- The reversed backward pair, read at `(b, k, d, p)`, is the plane of direction `k + 2` at the mirrored position. -/
theorem bwd_rev_at (x0 : FVec Ideal S16x4x192x56x56 .f32) (b : Fin 16) (k : Fin 2) (d : Fin 192) (p : Fin 3136) :
    val_main_v8 (F := Ideal) x0 (ix4 b k d p) = plane x0 b (⟨k.val + 2, by omega⟩ : Fin 4) d (3135 - p.val) := by
  rw [rev_at, bwd_at]

/-! ## The positions the gathers are fed, and the mask -/

/-- The sort's second result is the argsort's positions. -/
theorem v0_eq (x1 : IVec S16x3136x2 32) : val_main_v0 (F := Ideal) x1 = refPerm x1 := rfl

/-- The transposed, broadcast positions at `(b, k, 0, l)` are the argsort's at `(b, l, k)`. -/
theorem v2_at (x1 : IVec S16x3136x2 32) (b : Fin 16) (k : Fin 2) (l : Fin 3136) :
    val_main_v2 (F := Ideal) x1 (ix4 b k (0 : Fin 1) l) = refPerm x1 (ix3 b l k) := by
  rw [val_main_v2_apply, val_main_v1_apply, v0_eq]
  generalize refPerm x1 = π
  refine congrArg π (funext fun a => ?_)
  match a with
  | ⟨0, _⟩ => rfl
  | ⟨1, _⟩ => rfl
  | ⟨2, _⟩ => rfl

/-- The position the forward gather is fed at `(b, k, l)` is the argsort's at `(b, l, k)`: it is not negative, so it
    is not shifted. -/
theorem pos_at (x1 : IVec S16x3136x2 32) (hlt : ∀ j, (refPerm x1 j).toNat < 3136) (b : Fin 16) (k : Fin 2) (l : Fin 3136) :
    val_main_call1_v5 (F := Ideal) x1 (ix4 b k l (0 : Fin 1)) = refPerm x1 (ix3 b l k) := by
  have hi : idx_main_call1_v5 (ix4 b k l (0 : Fin 1)) = ix4 b k (0 : Fin 1) l := by
    have hb := b.isLt; have hk := k.isLt; have hl := l.isLt
    funext a; refine Fin.ext ?_
    match a with
    | ⟨0, _⟩ => show (((b.val * 2 + k.val) * 3136 + l.val) * 1 + 0) / 6272 = b.val; omega
    | ⟨1, _⟩ => show (((b.val * 2 + k.val) * 3136 + l.val) * 1 + 0) / 3136 % 2 = k.val; omega
    | ⟨2, _⟩ => rfl
    | ⟨3, _⟩ => show (((b.val * 2 + k.val) * 3136 + l.val) * 1 + 0) % 3136 = l.val; omega
  rw [val_main_call1_v5_apply, hi, val_main_call1_v4_apply, val_main_call1_v1_apply, val_main_call1_v3_apply,
    val_main_call1_v0_apply, val_main_call1_c_apply, val_main_call1_v2_apply, val_main_call1_c_0_apply, v2_at]
  exact wrap_select _ (hlt _)

/-- The mask at `(b, k, l)` is 1: the position passes both range tests. -/
theorem mask_at (x1 : IVec S16x3136x2 32) (hlt : ∀ j, (refPerm x1 j).toNat < 3136) (b : Fin 16) (k : Fin 2) (l : Fin 3136) :
    val_main_call1_v12 (F := Ideal) x1 (ix3 b k l) = 1#1 := by
  unfold val_main_call1_v12
  rw [reduce_and_unit _ _ (val_main_call1_c_3_apply _) b k l, val_main_call1_v11_apply, val_main_call1_v7_apply,
    val_main_call1_v10_apply, val_main_call1_v6_apply, val_main_call1_c_2_apply, val_main_call1_v9_apply,
    val_main_call1_v8_apply, val_main_call1_c_1_apply, pos_at x1 hlt]
  exact range_test _ (hlt _)

/-- The second call of the gathering function is fed the same positions … -/
theorem pos3_eq (x1 : IVec S16x3136x2 32) : val_main_call3_v5 (F := Ideal) x1 = val_main_call1_v5 (F := Ideal) x1 := rfl

/-- … and computes the same mask. -/
theorem mask3_eq (x1 : IVec S16x3136x2 32) : val_main_call3_v12 (F := Ideal) x1 = val_main_call1_v12 (F := Ideal) x1 := rfl

/-! ## The two gathered pairs -/

/-- The gathered forward pair at `(b, k, d, l)`: the plane of direction `k` at the position `perm (b, l, k)`. -/
theorem v5_at (x0 : FVec Ideal S16x4x192x56x56 .f32) (x1 : IVec S16x3136x2 32)
    (hlt : ∀ j, (refPerm x1 j).toNat < 3136) (b : Fin 16) (k : Fin 2) (d : Fin 192) (l : Fin 3136) :
    val_main_v5 (F := Ideal) x0 x1 (ix4 b k d l)
      = plane x0 b (⟨k.val, by omega⟩ : Fin 4) d (refPerm x1 (ix3 b l k)).toNat := by
  have hm : idx_main_call1_v14 (ix4 b k d l) = ix3 b k l := by
    funext a
    match a with
    | ⟨0, _⟩ => rfl
    | ⟨1, _⟩ => rfl
    | ⟨2, _⟩ => rfl
  rw [val_main_v5_apply, val_main_call1_v14_apply, hm, mask_at x1 hlt, select_one]
  unfold val_main_call1_v13
  rw [gather_at _ _ b k d l _ (pos_at x1 hlt b k l) (hlt _), fwd_at]

/-- The gathered reversed backward pair at `(b, k, d, l)`: the plane of direction `k + 2` at the mirrored position. -/
theorem v9_at (x0 : FVec Ideal S16x4x192x56x56 .f32) (x1 : IVec S16x3136x2 32)
    (hlt : ∀ j, (refPerm x1 j).toNat < 3136) (b : Fin 16) (k : Fin 2) (d : Fin 192) (l : Fin 3136) :
    val_main_v9 (F := Ideal) x0 x1 (ix4 b k d l)
      = plane x0 b (⟨k.val + 2, by omega⟩ : Fin 4) d (3135 - (refPerm x1 (ix3 b l k)).toNat) := by
  have hm : idx_main_call3_v14 (ix4 b k d l) = ix3 b k l := by
    funext a
    match a with
    | ⟨0, _⟩ => rfl
    | ⟨1, _⟩ => rfl
    | ⟨2, _⟩ => rfl
  rw [val_main_v9_apply, val_main_call3_v14_apply, hm, mask3_eq, mask_at x1 hlt, select_one]
  unfold val_main_call3_v13
  rw [pos3_eq, gather_at _ _ b k d l _ (pos_at x1 hlt b k l) (hlt _), bwd_rev_at]

/-- The reference's result stage is `result`, given that every position is below 3136. -/
theorem ref_result (x0 : FVec Ideal S16x4x192x56x56 .f32) (x1 : IVec S16x3136x2 32)
    (hlt : ∀ j, (refPerm x1 j).toNat < 3136) :
    val_main_v11 (F := Ideal) x0 x1 = result x0 (refPerm x1) := by
  funext j
  obtain ⟨b, d, l, rfl⟩ : ∃ (b : Fin 16) (d : Fin 192) (l : Fin 3136), j = ix3 b d l := ⟨j 0, j 1, j 2, eq_ix3 j⟩
  rw [val_main_v11_apply, result_ix3, val_main_cst_apply]
  show Ideal.ofBits .f32 0x00000000#32 + _ = _
  rw [Ideal.ofBits_zero_f32, zero_add]
  unfold resultAt
  refine Finset.sum_congr rfl fun k _ => ?_
  have hi : idx_main_v11 (ix3 b d l) k = ix4 b k d l := by
    funext a
    match a with
    | ⟨0, _⟩ => rfl
    | ⟨1, _⟩ => rfl
    | ⟨2, _⟩ => rfl
    | ⟨3, _⟩ => rfl
  rw [hi, val_main_v10_apply, v5_at x0 x1 hlt, v9_at x0 x1 hlt]
  generalize (refPerm x1 (ix3 b l k)).toNat = p
  rfl

end Cert.ReferenceIdeal.RefValue

end
-- ==== Proof.LibSortIota.lean ====
/-
  A stable two-operand sort that carries an iota along its own axis (how an argsort is written: the keys and the
  positions `0, 1, 2, …` of the sorted axis are permuted together) returns, in its second result, at every index
  the WORD OF A POSITION of that axis: the sort reads the second operand at the same index with only the sorted
  coordinate replaced by some position `k` of the axis, and the iota there is `k` as a word.

  So every entry of an argsort along an axis of extent `n` is `BitVec.ofNat w k` for some `k < n`: in range as an
  index into that axis, whatever the keys are and whether or not the comparator is an order. Nothing here evaluates the
  sort: the statement is generic in the shape, the axis, the key type and the comparator.
-/
import Idealize.ShloMosaic.PureOps.ShapeOps

noncomputable section

namespace Idealize.ShloMosaic

/-- The iota along axis `a`, read at an index whose coordinate `a` has been replaced by `k`, is `k` as a word. -/
theorem iotaInDim_along (s : Shape) (w : Nat) (a : Fin s.rank) (j : s.Idx) (k : Fin (s.size a)) :
    iotaInDim s w a (j.along a k) = BitVec.ofNat w k.val := by
  unfold iotaInDim Shape.Idx.along
  rw [Function.update_self]

/-- The second result of a two-operand sort along axis `d`, when the second operand is the iota along `d`, is at
    each index the word of some position of axis `d`. -/
theorem Host.sort2_iota_snd {s : Shape} {d : Nat} (hd : d < s.rank) {α : Type} {w : Nat}
    (cmp : α × BitVec w → α × BitVec w → BitVec 1) (x : s.Idx → α) (j : s.Idx) :
    ∃ k : Fin (s.size ⟨d, hd⟩), (Host.sort2 s d cmp x (iotaInDim s w ⟨d, hd⟩)).2 j = BitVec.ofNat w k.val := by
  unfold Host.sort2
  rw [dif_pos hd]
  exact ⟨_, iotaInDim_along s w ⟨d, hd⟩ j _⟩

/-- Hence, read as a natural number, it is below the axis's extent whenever that extent fits the word. -/
theorem Host.sort2_iota_snd_toNat_lt {s : Shape} {d : Nat} (hd : d < s.rank) {α : Type} {w : Nat}
    (hw : s.size ⟨d, hd⟩ ≤ 2 ^ w)
    (cmp : α × BitVec w → α × BitVec w → BitVec 1) (x : s.Idx → α) (j : s.Idx) :
    ((Host.sort2 s d cmp x (iotaInDim s w ⟨d, hd⟩)).2 j).toNat < s.size ⟨d, hd⟩ := by
  obtain ⟨k, hk⟩ := Host.sort2_iota_snd hd cmp x j
  rw [hk, BitVec.toNat_ofNat, Nat.mod_eq_of_lt (Nat.lt_of_lt_of_le k.isLt hw)]
  exact k.isLt

end Idealize.ShloMosaic

end
-- ==== Proof.Staged.lean ====
/-
  What the region finds in its two input arrays, over the extended reals, entry by entry.

  Before the region the program (i) argsorts the second argument along its middle axis, carrying the positions
  `0 … 3135` — `perm` below is that array of positions, [16, 3136, 2] —, transposes it to [16, 2, 3136] and pads it with
  zeros to [16, 2, 3200]: the index array; (ii) flattens each 56 × 56 plane of the first argument, splits the four scan
  directions into the forward pair and the backward pair, reverses the backward pair along the plane, adds the two, and
  pads with zeros to [16, 2, 192, 3200]: the panel. So at a source position `p < 3136` the panel holds
  `merged ys b k d p` (Spec.lean) and past it 0; at an output position `l < 3136` the index array holds `perm (b, l, k)`
  and past it 0. Every panel entry is a real number when every entry of the first argument is, and every index is a
  position below 3136 because a sort that carries an iota returns positions (LibSortIota.lean).
-/
import proofs.«421471_j34059090657946_3_alg».proof.Proof.Gen.KernelIdeal.Frame
import proofs.«421471_j34059090657946_3_alg».proof.Proof.Spec
import proofs.«421471_j34059090657946_3_alg».proof.Proof.LibSortIota
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

noncomputable section

namespace Cert.KernelIdeal.Staged

open Idealize.ShloMosaic Idealize.ShloMosaic.ValueIdx Idealize.ShloMosaic.TcCoe Idealize.SL.Sem
open Cert.KernelIdeal Cert.KernelIdeal.Gen Cert.CrossMerge

variable (m : (ℓ : Loc nD τ sig) → Buf (Elt Ideal) ℓ)

/-- The first argument as launched, and the argsort's positions of the second. -/
abbrev ys (c : Dev nD) : FVec Ideal SYs .f32 := m ((c : Thread nD τ).loc main_arg0)

/-- The argsort's positions: the second result of the stable sort of the second argument along axis 1 with the iota
    along that axis carried. Only `perm_lt` is ever used of it. -/
def perm (c : Dev nD) : IVec SPerm 32 :=
  (Host.sort2 S16x3136x2 1 comparator_i32_i32_d1 (m ((c : Thread nD τ).loc main_arg1)) (iotaInDim S16x3136x2 32 1)).2

/-- Every position is below 3136. -/
theorem perm_lt (c : Dev nD) (j : SPerm.Idx) : (perm m c j).toNat < 3136 := by
  have hd : 1 < S16x3136x2.rank := by decide
  have hw : S16x3136x2.size ⟨1, hd⟩ ≤ 2 ^ 32 := by show (3136 : ℕ) ≤ 2 ^ 32; norm_num
  exact Host.sort2_iota_snd_toNat_lt (s := S16x3136x2) (d := 1) (w := 32) hd hw comparator_i32_i32_d1
    (m ((c : Thread nD τ).loc main_arg1)) j

/-- The index array as the program's own term: the positions transposed, padded with the zero word. -/
theorem v8_eq (c : Dev nD) :
    (V m c main_v8 : S16x2x3200.Idx → BitVec 32)
      = pad S16x2x3200 ![0, 0, 0] ![0, 0, 64] ![0, 0, 0]
          (transpose S16x2x3136 [0, 2, 1] (perm m c) transposes_S16x3136x2_S16x2x3136_0_2_1)
          (id (constantI S_ 32 0#32)) pads_S16x2x3136_S16x2x3200_000_000_0640 h_S_ := by
  unfold perm
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The index array: the transposed positions, zero past column 3135. -/
theorem gidx_apply (c : Dev nD) (b : Fin 16) (k : Fin 2) (l : Fin 3200) :
    (V m c main_v8 : S16x2x3200.Idx → BitVec 32) (ix3 b k l)
      = if h : l.val < 3136 then perm m c (ix3 b (⟨l.val, h⟩ : Fin 3136) k) else 0#32 := by
  refine (congrFun (v8_eq m c) (ix3 b k l)).trans ?_
  generalize perm m c = π
  by_cases h : l.val < 3136
  · rw [dif_pos h]
    refine (pad_apply_of_inside (s := S16x2x3136) (t := S16x2x3200) ![0, 0, 0] ![0, 0, 64] ![0, 0, 0] _ _
      pads_S16x2x3136_S16x2x3200_000_000_0640 h_S_
      (ix3 b k l) (ix3 b k (⟨l.val, h⟩ : Fin 3136)) (fun a => match a with
        | ⟨0, _⟩ => by show b.val = 0 + b.val * (0 + 1); omega
        | ⟨1, _⟩ => by show k.val = 0 + k.val * (0 + 1); omega
        | ⟨2, _⟩ => by show l.val = 0 + l.val * (0 + 1); omega)).trans ?_
    exact transpose_apply [0, 2, 1] π transposes_S16x3136x2_S16x2x3136_0_2_1 (ix3 b k (⟨l.val, h⟩ : Fin 3136))
      (ix3 b (⟨l.val, h⟩ : Fin 3136) k) (fun a => match a with
        | ⟨0, _⟩ => rfl
        | ⟨1, _⟩ => rfl
        | ⟨2, _⟩ => rfl)
  · rw [dif_neg h]
    refine (pad_apply_of_not_inside (s := S16x2x3136) (t := S16x2x3200) ![0, 0, 0] ![0, 0, 64] ![0, 0, 0] _ _
      pads_S16x2x3136_S16x2x3200_000_000_0640 h_S_
      (ix3 b k l) (⟨2, by decide⟩ : Fin 3) (fun hh => h ?_)).trans rfl
    have h2 := hh.2.2
    change (l.val - 0) / (0 + 1) < 3136 at h2
    omega

/-- Hence every index is below 3200 (indeed below 3136). -/
theorem gidx_lt (c : Dev nD) (j : S16x2x3200.Idx) : ((V m c main_v8 : S16x2x3200.Idx → BitVec 32) j).toNat < 3200 := by
  obtain ⟨b, k, l, rfl⟩ : ∃ (b : Fin 16) (k : Fin 2) (l : Fin 3200), j = ix3 b k l := ⟨j 0, j 1, j 2, eq_ix3 j⟩
  rw [gidx_apply m c b k l]
  by_cases h : l.val < 3136
  · rw [dif_pos h]
    exact Nat.lt_trans (perm_lt m c _) (by norm_num)
  · rw [dif_neg h]
    show (0#32 : BitVec 32).toNat < 3200
    norm_num

/-- The first argument with each plane flattened. -/
abbrev flat (c : Dev nD) : FVec Ideal S16x4x192x3136 .f32 :=
  shapeCast S16x4x192x3136 (ys m c) shapeCasts_S16x4x192x56x56_S16x4x192x3136

/-- The panel as the program's own term: the forward pair plus the backward pair reversed along the plane, padded
    with the converted zero word. -/
theorem v7_eq (c : Dev nD) :
    (V m c main_v7 : S16x2x192x3200.Idx → EReal)
      = pad S16x2x192x3200 ![0, 0, 0, 0] ![0, 0, 0, 64] ![0, 0, 0, 0]
          (addf (F := Ideal)
            (extractStridedSlice S16x2x192x3136 ![0, 0, 0, 0] (flat m c) slices_S16x4x192x3136_S16x2x192x3136_0_0_0_0)
            (Host.reverse [3]
              (extractStridedSlice S16x2x192x3136 ![0, 2, 0, 0] (flat m c) slices_S16x4x192x3136_S16x2x192x3136_0_2_0_0)))
          (sitofp (F := Ideal) .f32 (constantI S_ 32 0#32)) pads_S16x2x192x3136_S16x2x192x3200_000_000_000_0640 h_S_ := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- A flattened plane read at position `p` is the plane read at row `p / 56`, column `p % 56`: the two row-major
    positions agree because `56 · (p / 56) + p % 56 = p` and `p / 56 < 56`. -/
theorem flat_apply (y : FVec Ideal SYs .f32) (b : Fin 16) (k : Fin 4) (d : Fin 192) (p : Fin 3136) :
    shapeCast S16x4x192x3136 y shapeCasts_S16x4x192x56x56_S16x4x192x3136 (ix4 b k d p) = plane y b k d p.val := by
  unfold plane
  refine shapeCast_apply y shapeCasts_S16x4x192x56x56_S16x4x192x3136 (ix4 b k d p)
    (ix5 b k d (⟨p.val / 56 % 56, Nat.mod_lt _ (by norm_num)⟩ : Fin 56) (⟨p.val % 56, Nat.mod_lt _ (by norm_num)⟩ : Fin 56)) ?_
  rw [Shape.rowMajor_val_five, Shape.rowMajor_val_four]
  have hp : p.val < 3136 := p.isLt
  show ((((b.val * 4 + k.val) * 192 + d.val) * 56 + p.val / 56 % 56) * 56 + p.val % 56
    = ((b.val * 4 + k.val) * 192 + d.val) * 3136 + p.val)
  omega

/-- The slice of directions `o, o + 1` of the flattened argument, read at an index. -/
theorem pair_apply (y : FVec Ideal S16x4x192x3136 .f32) (o : Nat) (ho : o + 2 ≤ 4)
    (hs : S16x4x192x3136.Slices ![0, o, 0, 0] S16x2x192x3136) (b : Fin 16) (k : Fin 2) (d : Fin 192) (p : Fin 3136) :
    extractStridedSlice S16x2x192x3136 ![0, o, 0, 0] y hs (ix4 b k d p)
      = y (ix4 b (⟨o + k.val, by omega⟩ : Fin 4) d p) :=
  extractStridedSlice_apply ![0, o, 0, 0] y hs (ix4 b k d p) (ix4 b (⟨o + k.val, by omega⟩ : Fin 4) d p) (fun a => match a with
    | ⟨0, _⟩ => by show b.val = 0 + b.val; omega
    | ⟨1, _⟩ => by show o + k.val = o + k.val; rfl
    | ⟨2, _⟩ => by show d.val = 0 + d.val; omega
    | ⟨3, _⟩ => by show p.val = 0 + p.val; omega)

/-- Reversing the last axis, of extent 3136, reads position `3135 − p`. -/
theorem reverse_apply {α : Type} (x : S16x2x192x3136.Idx → α) (b : Fin 16) (k : Fin 2) (d : Fin 192) (p : Fin 3136) :
    Host.reverse [3] x (ix4 b k d p) = x (ix4 b k d (⟨3135 - p.val, by omega⟩ : Fin 3136)) := by
  unfold Host.reverse
  refine congrArg x (funext fun a => ?_)
  match a with
  | ⟨0, _⟩ => exact if_neg fun hm => absurd (congrArg Fin.val (List.mem_singleton.1 hm)) (by show ¬((0 : ℕ) = 3); decide)
  | ⟨1, _⟩ => exact if_neg fun hm => absurd (congrArg Fin.val (List.mem_singleton.1 hm)) (by show ¬((1 : ℕ) = 3); decide)
  | ⟨2, _⟩ => exact if_neg fun hm => absurd (congrArg Fin.val (List.mem_singleton.1 hm)) (by show ¬((2 : ℕ) = 3); decide)
  | ⟨3, _⟩ =>
    refine (if_pos (List.mem_singleton.2 (Fin.ext rfl))).trans (Fin.ext ?_)
    have hp : p.val < 3136 := p.isLt
    show 3136 - (p.val + 1) = 3135 - p.val
    omega

/-- The panel: the merged planes, zero past position 3135. -/
theorem panel_apply (c : Dev nD) (b : Fin 16) (k : Fin 2) (d : Fin 192) (p : Fin 3200) :
    (V m c main_v7 : S16x2x192x3200.Idx → EReal) (ix4 b k d p)
      = if p.val < 3136 then merged (ys m c) b k d p.val else 0 := by
  refine (congrFun (v7_eq m c) (ix4 b k d p)).trans ?_
  by_cases h : p.val < 3136
  · rw [if_pos h]
    refine (pad_apply_of_inside (s := S16x2x192x3136) (t := S16x2x192x3200) ![0, 0, 0, 0] ![0, 0, 0, 64] ![0, 0, 0, 0] _ _
      pads_S16x2x192x3136_S16x2x192x3200_000_000_000_0640 h_S_
      (ix4 b k d p) (ix4 b k d (⟨p.val, h⟩ : Fin 3136)) (fun a => match a with
        | ⟨0, _⟩ => by show b.val = 0 + b.val * (0 + 1); omega
        | ⟨1, _⟩ => by show k.val = 0 + k.val * (0 + 1); omega
        | ⟨2, _⟩ => by show d.val = 0 + d.val * (0 + 1); omega
        | ⟨3, _⟩ => by show p.val = 0 + p.val * (0 + 1); omega)).trans ?_
    refine (addf_apply _ _ _).trans ?_
    unfold merged
    refine congrArg₂ (· + ·) ?_ ?_
    · refine (pair_apply (flat m c) 0 (by norm_num) slices_S16x4x192x3136_S16x2x192x3136_0_0_0_0 b k d ⟨p.val, h⟩).trans ?_
      refine (flat_apply (ys m c) b _ d ⟨p.val, h⟩).trans ?_
      exact congrArg (fun q : Fin 4 => plane (ys m c) b q d p.val) (Fin.ext (by show 0 + k.val = k.val; omega))
    · refine (reverse_apply _ b k d ⟨p.val, h⟩).trans ?_
      refine (pair_apply (flat m c) 2 (by norm_num) slices_S16x4x192x3136_S16x2x192x3136_0_2_0_0 b k d _).trans ?_
      refine (flat_apply (ys m c) b _ d _).trans ?_
      exact congrArg (fun q : Fin 4 => plane (ys m c) b q d (3135 - p.val)) (Fin.ext (by show 2 + k.val = k.val + 2; omega))
  · rw [if_neg h]
    refine (pad_apply_of_not_inside (s := S16x2x192x3136) (t := S16x2x192x3200) ![0, 0, 0, 0] ![0, 0, 0, 64] ![0, 0, 0, 0] _ _
      pads_S16x2x192x3136_S16x2x192x3200_000_000_000_0640 h_S_
      (ix4 b k d p) (⟨3, by decide⟩ : Fin 4) (fun hh => h ?_)).trans ?_
    · have h2 := hh.2.2
      change (p.val - 0) / (0 + 1) < 3136 at h2
      omega
    · show ((((0#32 : BitVec 32).toInt : ℤ) : ℝ) : EReal) = 0
      simp

/-- Every panel entry is a real number when every entry of the first argument is. -/
theorem panel_real (c : Dev nD) (hys : ∀ i, ∃ r : ℝ, ys m c i = (r : EReal)) (j : S16x2x192x3200.Idx) :
    ∃ r : ℝ, (V m c main_v7 : S16x2x192x3200.Idx → EReal) j = (r : EReal) := by
  obtain ⟨b, k, d, p, rfl⟩ : ∃ (b : Fin 16) (k : Fin 2) (d : Fin 192) (p : Fin 3200), j = ix4 b k d p :=
    ⟨j 0, j 1, j 2, j 3, eq_ix4 j⟩
  rw [panel_apply m c b k d p]
  by_cases h : p.val < 3136
  · rw [if_pos h]
    unfold merged plane
    obtain ⟨r₁, h₁⟩ := hys (ix5 b (⟨k.val, by omega⟩ : Fin 4) d
      (⟨p.val / 56 % 56, Nat.mod_lt _ (by norm_num)⟩ : Fin 56) (⟨p.val % 56, Nat.mod_lt _ (by norm_num)⟩ : Fin 56))
    obtain ⟨r₂, h₂⟩ := hys (ix5 b (⟨k.val + 2, by omega⟩ : Fin 4) d
      (⟨(3135 - p.val) / 56 % 56, Nat.mod_lt _ (by norm_num)⟩ : Fin 56)
      (⟨(3135 - p.val) % 56, Nat.mod_lt _ (by norm_num)⟩ : Fin 56))
    exact ⟨r₁ + r₂, by rw [h₁, h₂, EReal.coe_add]⟩
  · rw [if_neg h]
    exact ⟨0, EReal.coe_zero.symm⟩

end Cert.KernelIdeal.Staged

end
-- ==== Proof.BodyDefs.lean ====
/-
  The kernel body as ONE pure function of its two input blocks, generic in the float family.

  The body receives the source panel `x0 : [1, 2, 192, 3200]` (two channels of 192 rows, 3200 source positions) and the
  gather indices `x1 : [1, 2, 640]` (for each channel, one source position per output column of this tile), and fills
  the output tile `[1, 192, 640]`. It zeroes the tile and then, for each of the five source chunks
  `m0 ∈ {0, 640, 1280, 1920, 2560}` and each channel `k ∈ {0, 1}`, adds one picked contribution:

    * `sel g m0` is the 640 × 640 selection matrix of the chunk: entry (i, l) is 1 where `i = g l − m0` as 32-bit words,
      else 0 (an iota along the rows compared with the shifted indices, widened, converted to a float);
    * `picked oh src` multiplies the chunk `src` (192 × 640) by it, twice: once the chunk itself narrowed to the short
      format, once the remainder `src − src'` where `src'` is the chunk narrowed and widened again (which the
      idealization has already replaced by `src`), and adds the two products;
    * `accum acc c` adds a contribution to the tile.

  Every definition below spells the operations exactly as the printed body does, so each of its stores' values is one
  of these by unfolding alone.
-/
import proofs.«421471_j34059090657946_3_alg».proof.Proof.Gen.KernelIdeal
import Idealize.ShloMosaic.Lib.Pipeline.FrameBody

noncomputable section

namespace Cert.KernelIdeal.Body

open Idealize.ShloMosaic Idealize.SL.Sem Cert.KernelIdeal Cert.KernelIdeal.Gen

variable {F : FTy → Type} [FloatOps F]

/-- The tile of zeros the body starts from. -/
def zeroTile : FVec F S1x192x640 .f32 :=
  shapeCast S1x192x640 (broadcast S192x640 (Scalar.ofBits (F := F) .f32 0x00000000#32)) shapeCasts_S192x640_S1x192x640

/-- The selection matrix of the chunk starting at source position `m0`, for the index row `g`, as 32-bit words:
    entry (i, l) is 1 where the row number `i` equals `g l − m0`, else 0. -/
def selBits (g : Vec F S1x1x640 .i32) (m0 : BitVec 32) : IVec S640x640 32 :=
  extui 32 (cmpi .eq (iota .tc S640x640 32 [0] iota_S640x640_d0_w32)
    (broadcastTo S640x640 (subi (shapeCast S1x640 (shapeCast S640 g shapeCasts_S1x1x640_S640) shapeCasts_S640_S1x640)
      (broadcast S1x640 m0)) broadcasts_S1x640_S640x640)) natLt_1_32

/-- The same as a matrix of floats in the short format. -/
def sel (g : Vec F S1x1x640 .i32) (m0 : BitVec 32) : FVec F S640x640 .bf16 :=
  truncf .bf16 (sitofp .f32 (selBits (F := F) g m0)) bitsLt_bf16_f32

/-- One chunk's contribution: the chunk times the selection matrix plus the chunk's narrowing remainder times it. -/
def picked (oh : FVec F S640x640 .bf16) (src : Vec F S1x1x192x640 .f32) : FVec F S192x640 .f32 :=
  addf
    (matmul dot_S192x640_S640x640_S192x640_1_0_0_1_n_n none
      (truncf .bf16 (shapeCast S192x640 src shapeCasts_S1x1x192x640_S192x640) bitsLt_bf16_f32) oh
      (constant S192x640 .f32 0x00000000#32))
    (matmul dot_S192x640_S640x640_S192x640_1_0_0_1_n_n none
      (truncf .bf16 (subf (shapeCast S192x640 src shapeCasts_S1x1x192x640_S192x640)
        (shapeCast S192x640 src shapeCasts_S1x1x192x640_S192x640)) bitsLt_bf16_f32) oh
      (constant S192x640 .f32 0x00000000#32))

/-- Adding a contribution to the tile. -/
def accum (acc : Vec F S1x192x640 .f32) (c : FVec F S192x640 .f32) : FVec F S1x192x640 .f32 :=
  shapeCast S1x192x640 (addf (shapeCast S192x640 acc shapeCasts_S1x192x640_S192x640) c) shapeCasts_S192x640_S1x192x640

/-- One step: the tile plus the contribution of index row `g`, chunk start `m0`, source chunk `src`. -/
def step (acc : Vec F S1x192x640 .f32) (g : Vec F S1x1x640 .i32) (m0 : BitVec 32) (src : Vec F S1x1x192x640 .f32) :
    FVec F S1x192x640 .f32 :=
  accum acc (picked (sel g m0) src)

/-- The ten steps in the body's order (chunk by chunk, channel 0 then channel 1), over the two index rows `g0`, `g1`
    and the ten source chunks `s k m` (channel `k`, chunk `m`). -/
def chain (g0 g1 : Vec F S1x1x640 .i32)
    (s00 s10 s01 s11 s02 s12 s03 s13 s04 s14 : Vec F S1x1x192x640 .f32) : FVec F S1x192x640 .f32 :=
  step (step (step (step (step (step (step (step (step (step (zeroTile (F := F))
    g0 0#32 s00) g1 0#32 s10) g0 640#32 s01) g1 640#32 s11) g0 1280#32 s02) g1 1280#32 s12)
    g0 1920#32 s03) g1 1920#32 s13) g0 2560#32 s04) g1 2560#32 s14

/-- Row `k` of the index block. -/
def row0 (x1 : Vec F S1x2x640 .i32) : Vec F S1x1x640 .i32 :=
  View.ld x1 (Rect.unit (s := S1x2x640) ![0, 0, 0] S1x1x640.size inb_S1x2x640_S1x1x640_0_0_0)
def row1 (x1 : Vec F S1x2x640 .i32) : Vec F S1x1x640 .i32 :=
  View.ld x1 (Rect.unit (s := S1x2x640) ![0, 1, 0] S1x1x640.size inb_S1x2x640_S1x1x640_0_1_0)

/-- THE BODY: the output tile as a function of the panel block `x0` and the index block `x1` — the ten steps over the
    two index rows and the ten chunks of the panel (channel `k` at source positions `640·m … 640·m + 639`). -/
def bodyFn (x0 : Vec F S1x2x192x3200 .f32) (x1 : Vec F S1x2x640 .i32) : FVec F S1x192x640 .f32 :=
  chain (row0 x1) (row1 x1)
    (View.ld x0 (Rect.unit (s := S1x2x192x3200) ![0, 0, 0, 0] S1x1x192x640.size inb_S1x2x192x3200_S1x1x192x640_0_0_0_0))
    (View.ld x0 (Rect.unit (s := S1x2x192x3200) ![0, 1, 0, 0] S1x1x192x640.size inb_S1x2x192x3200_S1x1x192x640_0_1_0_0))
    (View.ld x0 (Rect.unit (s := S1x2x192x3200) ![0, 0, 0, 640] S1x1x192x640.size inb_S1x2x192x3200_S1x1x192x640_0_0_0_640))
    (View.ld x0 (Rect.unit (s := S1x2x192x3200) ![0, 1, 0, 640] S1x1x192x640.size inb_S1x2x192x3200_S1x1x192x640_0_1_0_640))
    (View.ld x0 (Rect.unit (s := S1x2x192x3200) ![0, 0, 0, 1280] S1x1x192x640.size inb_S1x2x192x3200_S1x1x192x640_0_0_0_1280))
    (View.ld x0 (Rect.unit (s := S1x2x192x3200) ![0, 1, 0, 1280] S1x1x192x640.size inb_S1x2x192x3200_S1x1x192x640_0_1_0_1280))
    (View.ld x0 (Rect.unit (s := S1x2x192x3200) ![0, 0, 0, 1920] S1x1x192x640.size inb_S1x2x192x3200_S1x1x192x640_0_0_0_1920))
    (View.ld x0 (Rect.unit (s := S1x2x192x3200) ![0, 1, 0, 1920] S1x1x192x640.size inb_S1x2x192x3200_S1x1x192x640_0_1_0_1920))
    (View.ld x0 (Rect.unit (s := S1x2x192x3200) ![0, 0, 0, 2560] S1x1x192x640.size inb_S1x2x192x3200_S1x1x192x640_0_0_0_2560))
    (View.ld x0 (Rect.unit (s := S1x2x192x3200) ![0, 1, 0, 2560] S1x1x192x640.size inb_S1x2x192x3200_S1x1x192x640_0_1_0_2560))

end Cert.KernelIdeal.Body

end
-- ==== Proof.LibCoveredRead.lean ====
/-
  A load through the whole-shape rectangle at zero offsets, taken after a list of stores whose LAST one (the head of
  the list: pieces are kept last first) went through that same rectangle, reads that last store's payload, whatever
  the earlier stores were: the last store overwrote every element the load reads.

  This is the several-store form of the library's one-store statement (Lib/Pipeline/Value.lean,
  `View.readCov_unit_zero`): an accumulator that is stored whole, read back whole, updated and stored whole again,
  any number of times, reads back at each step exactly what the step before stored.
-/
import Idealize.ShloMosaic.Lib.Pipeline.Value

noncomputable section

namespace Idealize.ShloMosaic.View

variable {Val : EltTy → Type} {S : Shape} {e : EltTy}

/-- Every index of the shape lies in the head piece when that piece is the whole-shape rectangle at zero offsets,
    so the list covers any load box. -/
theorem cover_cons_unit_zero {off : Fin S.rank → Nat} (h : off = fun _ => 0)
    (inb : ∀ a, off a + S.size a ≤ S.size a) (w : S.Idx → Val e) (L : List (Piece Val S e)) (y : S.Idx) :
    ∃ p ∈ ((⟨Rect.unit off S.size inb, w⟩ : Piece Val S e) :: L), y ∈ p.1.set :=
  ⟨_, List.mem_cons_self, mem_set_unit_zero h inb y⟩

/-- The whole-shape load after stores the last of which was a whole-shape store reads that store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  rw [readCov_eq_canon_ld _ _ _ (cover_cons_unit_zero h inb w L), canon_cons_unit_zero h inb w L, ld_unit_zero h inb w]

end Idealize.ShloMosaic.View

end
-- ==== Proof.BodyShape.lean ====
/-
  What the body leaves in the output tile IS the pure function `bodyFn` of its two input blocks, at any float family.

  The body's run leaves the tile as eleven whole-tile stores, the last on top; each store after the first wrote the
  tile it had just read back plus one contribution. Read back through the whole tile, each load sees exactly what the
  store before it wrote (`View.readCov_cons_unit_zero`), so the nested read-backs collapse into one chain: the zero
  tile, then ten steps. Each store's value is one `step` by unfolding: the printed operations are `step`'s own.
-/
import proofs.«421471_j34059090657946_3_alg».proof.Proof.Gen.KernelIdeal.Frame
import proofs.«421471_j34059090657946_3_alg».proof.Proof.BodyDefs
import proofs.«421471_j34059090657946_3_alg».proof.Proof.LibCoveredRead

set_option maxRecDepth 16384

noncomputable section

namespace Cert.KernelIdeal.Body

open Idealize.ShloMosaic Idealize.ShloMosaic.TcCoe Idealize.ShloMosaic.Tactic Idealize.SL.Sem
open Cert.KernelIdeal Cert.KernelIdeal.Gen

variable {F : FTy → Type} [FloatOps F]

theorem hz3 : (![0, 0, 0] : Fin 3 → Nat) = fun _ => 0 := funext fun a => by fin_cases a <;> rfl

/-! ## Each store's value is a step -/

theorem pay2_eq : k0_pay2 (F := F) = zeroTile := rfl

theorem pay3_eq (g : Vec F S1x1x640 .i32) (s : Vec F S1x1x192x640 .f32) (acc : Vec F S1x192x640 .f32) :
    k0_pay3 g s acc = step acc g 0#32 s := rfl

theorem pay5_eq (g : Vec F S1x1x640 .i32) (s : Vec F S1x1x192x640 .f32) (acc : Vec F S1x192x640 .f32) :
    k0_pay5 (iota .tc S640x640 32 [0] iota_S640x640_d0_w32) (k0_pay4 g) s acc = step acc g 0#32 s := rfl

theorem pay10_eq (g : Vec F S1x1x640 .i32) (s : Vec F S1x1x192x640 .f32) (acc : Vec F S1x192x640 .f32) :
    k0_pay10 (k0_pay6 (iota .tc S640x640 32 [0] iota_S640x640_d0_w32) g) (k0_pay8 s) (k0_pay9 s) acc
      = step acc g 640#32 s := rfl

theorem pay11_eq (g : Vec F S1x1x640 .i32) (s : Vec F S1x1x192x640 .f32) (acc : Vec F S1x192x640 .f32) :
    k0_pay11 (iota .tc S640x640 32 [0] iota_S640x640_d0_w32) g s acc = step acc g 640#32 s := rfl

theorem pay12_eq (g : Vec F S1x1x640 .i32) (s : Vec F S1x1x192x640 .f32) (acc : Vec F S1x192x640 .f32) :
    k0_pay12 (iota .tc S640x640 32 [0] iota_S640x640_d0_w32) g s acc = step acc g 1280#32 s := rfl

theorem pay14_eq (g : Vec F S1x1x640 .i32) (s : Vec F S1x1x192x640 .f32) (acc : Vec F S1x192x640 .f32) :
    k0_pay14 (k0_pay13 (iota .tc S640x640 32 [0] iota_S640x640_d0_w32) g) s acc = step acc g 1280#32 s := rfl

theorem pay16_eq (g : Vec F S1x1x640 .i32) (s : Vec F S1x1x192x640 .f32) (acc : Vec F S1x192x640 .f32) :
    k0_pay16 (k0_pay15 (iota .tc S640x640 32 [0] iota_S640x640_d0_w32) g s acc) = step acc g 1920#32 s := rfl

theorem pay17_eq (g : Vec F S1x1x640 .i32) (s : Vec F S1x1x192x640 .f32) (acc : Vec F S1x192x640 .f32) :
    k0_pay17 (iota .tc S640x640 32 [0] iota_S640x640_d0_w32) g s acc = step acc g 1920#32 s := rfl

theorem pay19_eq (g : Vec F S1x1x640 .i32) (s : Vec F S1x1x192x640 .f32) (acc : Vec F S1x192x640 .f32) :
    k0_pay19 (k0_pay18 (iota .tc S640x640 32 [0] iota_S640x640_d0_w32) g) s acc = step acc g 2560#32 s := rfl

theorem pay1_eq (g : Vec F S1x1x640 .i32) (s : Vec F S1x1x192x640 .f32) (acc : Vec F S1x192x640 .f32) :
    k0_pay1 (k0_pay20 (iota .tc S640x640 32 [0] iota_S640x640_d0_w32) g s) acc = step acc g 2560#32 s := rfl

/-! ## The tile the run leaves -/

theorem out_eq (c : Dev nD) (i : grid0.Coords) (arg2 : Memref sig .tc .vmem S1x2x192x3200 .f32) (harg2 : arg2.IsWhole)
    (arg3 : Memref sig .tc .vmem S1x2x640 .i32) (harg3 : arg3.IsWhole) (arg4 : Memref sig .tc .vmem S1x192x640 .f32)
    (harg4 : arg4.IsWhole) (x0 : Vec F S1x2x192x3200 .f32) (x1 : Vec F S1x2x640 .i32) :
    out0_A_2 c i arg2 harg2 arg3 harg3 arg4 harg4 x0 x1 = bodyFn x0 x1 := by
  unfold out0_A_2
  rw [View.read_writes_eq_canon _ _ _ (cover0_A_2 c i arg2 harg2 arg3 harg3 arg4 harg4 x0 x1)]
  unfold kernelRun0_A
  dsimp only
  sl_unfold_words
  refine (View.canon_cons_unit_zero (S := S1x192x640) hz3 _ _ _).trans ?_
  simp only [View.readCov_cons_unit_zero (S := S1x192x640) _ hz3, View.readCov_unit_zero (S := S1x192x640) _ hz3,
    View.readAt_eq_ld, harg2.read_unread, harg3.read_unread]
  simp only [pay1_eq, pay19_eq, pay17_eq, pay16_eq, pay14_eq, pay12_eq, pay11_eq, pay10_eq, pay5_eq, pay3_eq, pay2_eq]
  rfl

end Cert.KernelIdeal.Body

end
-- ==== Proof.BodyIdeal.lean ====
/-
  The body's tile over the extended reals, entry by entry.

  At the exact instance a format change is the identity, a converted 0/1 word is the real 0 or 1, and a matrix product
  is the plain sum over the contracted axis. So one chunk's contribution at row `d`, column `l` is

      Σ_i src(d, i) · [i = g l − m0]  +  Σ_i (src(d, i) − src(d, i)) · [i = g l − m0],

  whose first sum picks `src(d, g l − m0)` when `g l` lies in the chunk `[m0, m0 + 640)` and is 0 otherwise, and whose
  second sum is 0 as soon as every `src(d, i)` is a real number (`x − x = 0` fails only at an infinity). The five
  chunks partition the 3200 source positions, so over the five chunks of one channel exactly one contribution is the
  picked entry `x0(k, d, g_k l)` and the other four are 0; the ten steps add these to the zero tile, and addition of
  extended reals is commutative and associative. Hence, for a panel of real entries and indices below 3200,

      bodyFn x0 x1 (0, d, l) = Σ_{k < 2} x0(0, k, d, x1(0, k, l)).
-/
import proofs.«421471_j34059090657946_3_alg».proof.Proof.BodyDefs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Idealize.SL.Sem Cert.KernelIdeal Cert.KernelIdeal.Gen

/-! ## The matrix product read at an entry -/

/-- The dimension numbers of the body's matrix products: rows × contraction times contraction × columns. -/
abbrev D := dot_S192x640_S640x640_S192x640_1_0_0_1_n_n

theorem lhs_axis0 (j : S192x640.Idx) (k : D.contr.Idx) : (D.lhsIdx j k (0 : Fin 2)).val = (j 0).val := by
  have hb : (0 : Fin 2) ∉ D.lhsBatch := List.not_mem_nil
  have hn : (0 : Fin 2) ∈ D.lhsNonContracting := List.mem_singleton.mpr rfl
  unfold DotDims.lhsIdx
  rw [dif_neg hb, dif_pos hn]
  rfl

theorem lhs_axis1 (j : S192x640.Idx) (k : D.contr.Idx) : (D.lhsIdx j k (1 : Fin 2)).val = (k ⟨0, by decide⟩).val :=
  D.lhsIdx_val_of_single (cl := (1 : Fin 2)) rfl j k

theorem rhs_axis0 (j : S192x640.Idx) (k : D.contr.Idx) : (D.rhsIdx j k (0 : Fin 2)).val = (k ⟨0, by decide⟩).val :=
  D.rhsIdx_val_of_single (cr := (0 : Fin 2)) rfl j k

theorem rhs_axis1 (j : S192x640.Idx) (k : D.contr.Idx) : (D.rhsIdx j k (1 : Fin 2)).val = (j 1).val := by
  have hb : (1 : Fin 2) ∉ D.rhsBatch := List.not_mem_nil
  have hn : (1 : Fin 2) ∈ D.rhsNonContracting := List.mem_singleton.mpr rfl
  unfold DotDims.rhsIdx
  rw [dif_neg hb, dif_pos hn]
  rfl

/-- The contraction index is its one coordinate. -/
abbrev cE : D.contr.Idx ≃ Fin 640 := contrEquiv1 D 640 rfl rfl

theorem lhsIdx_eq (d : Fin 192) (l i : Fin 640) : D.lhsIdx (ix2 d l) (cE.symm i) = ix2 d i :=
  Shape.idx_ext₂ (lhs_axis0 _ _) ((lhs_axis1 _ _).trans (contrEquiv1_symm_val D 640 rfl rfl i))

theorem rhsIdx_eq (d : Fin 192) (l i : Fin 640) : D.rhsIdx (ix2 d l) (cE.symm i) = ix2 i l :=
  Shape.idx_ext₂ ((rhs_axis0 _ _).trans (contrEquiv1_symm_val D 640 rfl rfl i)) (rhs_axis1 _ _)

/-- A product into the zero tile, read at (d, l): the plain sum over the contracted axis. -/
theorem matmul_at (lhs : FVec Ideal S192x640 .bf16) (rhs : FVec Ideal S640x640 .bf16) (d : Fin 192) (l : Fin 640) :
    matmul D none lhs rhs (constant S192x640 .f32 0x00000000#32) (ix2 d l)
      = ∑ i : Fin 640, lhs (ix2 d i) * rhs (ix2 i l) := by
  refine (Ideal.matmul_constant_zero_apply D none lhs rhs (ix2 d l)).trans ?_
  rw [← Equiv.sum_comp cE.symm]
  refine Finset.sum_congr rfl fun i _ => ?_
  rw [lhsIdx_eq, rhsIdx_eq]

/-! ## The loads through the literal rectangles -/

/-- A chunk of the panel read at (0, 0, d, i): channel `k`, row `d`, source position `m0 + i`. -/
theorem ld_chunk (x0 : Vec Ideal S1x2x192x3200 .f32) (k m0 : ℕ) (hk : k < 2) (hm : m0 + 640 ≤ 3200)
    (inb : ∀ a, (![0, k, 0, m0] : Fin 4 → ℕ) a + S1x1x192x640.size a ≤ S1x2x192x3200.size a)
    (d : Fin 192) (i : Fin 640) :
    View.ld x0 (Rect.unit (s := S1x2x192x3200) ![0, k, 0, m0] S1x1x192x640.size inb) (ix4 (0 : Fin 1) (0 : Fin 1) d i)
      = x0 (ix4 (0 : Fin 1) (⟨k, hk⟩ : Fin 2) d (⟨m0 + i.val, by omega⟩ : Fin 3200)) := by
  show x0 _ = x0 _
  refine congrArg x0 (funext fun a => Fin.ext ?_)
  match a with
  | ⟨0, _⟩ => rfl
  | ⟨1, _⟩ => show k + 1 * 0 = k; omega
  | ⟨2, _⟩ => show 0 + 1 * d.val = d.val; omega
  | ⟨3, _⟩ => show m0 + 1 * i.val = m0 + i.val; omega

/-- A row of the index block read at (0, 0, l): channel `k`, column `l`. -/
theorem ld_row (x1 : Vec Ideal S1x2x640 .i32) (k : ℕ) (hk : k < 2)
    (inb : ∀ a, (![0, k, 0] : Fin 3 → ℕ) a + S1x1x640.size a ≤ S1x2x640.size a) (l : Fin 640) :
    View.ld x1 (Rect.unit (s := S1x2x640) ![0, k, 0] S1x1x640.size inb) (ix3 (0 : Fin 1) (0 : Fin 1) l)
      = x1 (ix3 (0 : Fin 1) (⟨k, hk⟩ : Fin 2) l) := by
  show x1 _ = x1 _
  refine congrArg x1 (funext fun a => Fin.ext ?_)
  match a with
  | ⟨0, _⟩ => rfl
  | ⟨1, _⟩ => show k + 1 * 0 = k; omega
  | ⟨2, _⟩ => show 0 + 1 * l.val = l.val; omega

theorem row0_apply (x1 : Vec Ideal S1x2x640 .i32) (l : Fin 640) :
    row0 (F := Ideal) x1 (ix3 (0 : Fin 1) (0 : Fin 1) l) = x1 (ix3 (0 : Fin 1) (0 : Fin 2) l) :=
  ld_row x1 0 (by omega) _ l
theorem row1_apply (x1 : Vec Ideal S1x2x640 .i32) (l : Fin 640) :
    row1 (F := Ideal) x1 (ix3 (0 : Fin 1) (0 : Fin 1) l) = x1 (ix3 (0 : Fin 1) (1 : Fin 2) l) :=
  ld_row x1 1 (by omega) _ l

/-! ## The selection matrix at an entry -/

/-- The index row flattened and given a unit axis again, read at (0, l), is the row at (0, 0, l). -/
theorem rowcast_apply (g : Vec Ideal S1x1x640 .i32) (l : Fin 640) :
    shapeCast S1x640 (shapeCast S640 g shapeCasts_S1x1x640_S640) shapeCasts_S640_S1x640 (ix2 (0 : Fin 1) l)
      = g (ix3 (0 : Fin 1) (0 : Fin 1) l) := by
  refine (shapeCast_a_1a_apply _ _ 0 l).trans ?_
  refine shapeCast_apply g _ (ix1 l) (ix3 (0 : Fin 1) (0 : Fin 1) l) ?_
  rw [Shape.rowMajor_val_three, Shape.rowMajor_val_one]
  show (0 * 1 + 0) * 640 + l.val = l.val
  omega

/-- The selection matrix as words, read at (i, l): the comparison of the row number with the shifted index, widened. -/
theorem selBits_apply (g : Vec Ideal S1x1x640 .i32) (m0 : BitVec 32) (i l : Fin 640) :
    selBits (F := Ideal) g m0 (ix2 i l)
      = (IntOp.cmpi .eq (BitVec.ofNat 32 i.val) (g (ix3 (0 : Fin 1) (0 : Fin 1) l) - m0)).setWidth 32 := by
  show (IntOp.cmpi .eq (iota .tc S640x640 32 [0] iota_S640x640_d0_w32 (ix2 i l))
      (broadcastTo S640x640 (subi (shapeCast S1x640 (shapeCast S640 g shapeCasts_S1x1x640_S640) shapeCasts_S640_S1x640)
        (broadcast S1x640 m0)) broadcasts_S1x640_S640x640 (ix2 i l))).setWidth 32 = _
  rw [iota_single_apply, broadcastTo_1b_ab_apply]
  show (IntOp.cmpi .eq _ (shapeCast S1x640 (shapeCast S640 g shapeCasts_S1x1x640_S640) shapeCasts_S640_S1x640 (ix2 (0 : Fin 1) l) - m0)).setWidth 32 = _
  rw [rowcast_apply]

/-- The selection matrix read at (i, l): the real 1 where the row number is the shifted index as a word, else 0. -/
theorem sel_apply (g : Vec Ideal S1x1x640 .i32) (m0 : BitVec 32) (i l : Fin 640) :
    sel (F := Ideal) g m0 (ix2 i l)
      = if BitVec.ofNat 32 i.val = g (ix3 (0 : Fin 1) (0 : Fin 1) l) - m0 then (1 : EReal) else 0 := by
  show ((((selBits (F := Ideal) g m0 (ix2 i l)).toInt : ℝ)) : EReal) = _
  rw [selBits_apply]
  by_cases h : BitVec.ofNat 32 i.val = g (ix3 (0 : Fin 1) (0 : Fin 1) l) - m0
  · rw [if_pos h]
    have : IntOp.cmpi .eq (BitVec.ofNat 32 i.val) (g (ix3 (0 : Fin 1) (0 : Fin 1) l) - m0) = 1#1 := by
      simp [IntOp.cmpi, h]
    rw [this]
    have : ((1#1).setWidth 32 : BitVec 32).toInt = 1 := by decide
    rw [this]; simp
  · rw [if_neg h]
    have : IntOp.cmpi .eq (BitVec.ofNat 32 i.val) (g (ix3 (0 : Fin 1) (0 : Fin 1) l) - m0) = 0#1 := by
      simp [IntOp.cmpi, beq_eq_false_iff_ne.mpr h]
    rw [this]
    have : ((0#1).setWidth 32 : BitVec 32).toInt = 0 := by decide
    rw [this]; simp

/-! ## The algebra of picking, with no program term in it -/

section Algebra

/-- A 0/1 row with its one at position `t` picks the `t`-th term of a sum. -/
theorem sum_pick (f : Fin 640 → EReal) (c : Fin 640 → Prop) [DecidablePred c] (t : Fin 640)
    (hc : ∀ i, c i ↔ i = t) :
    ∑ i : Fin 640, f i * (if c i then (1 : EReal) else 0) = f t := by
  rw [Finset.sum_eq_single t]
  · rw [if_pos ((hc t).mpr rfl), mul_one]
  · intro b _ hb
    rw [if_neg (fun h => hb ((hc b).mp h)), mul_zero]
  · intro h
    exact absurd (Finset.mem_univ t) h

/-- A row of zeros picks nothing. -/
theorem sum_pick_none (f : Fin 640 → EReal) (c : Fin 640 → Prop) [DecidablePred c] (hc : ∀ i, ¬ c i) :
    ∑ i : Fin 640, f i * (if c i then (1 : EReal) else 0) = 0 :=
  Finset.sum_eq_zero fun i _ => by rw [if_neg (hc i), mul_zero]

/-- The remainder of a real entry is zero, so the remainder's product vanishes. -/
theorem sum_remainder (f : Fin 640 → EReal) (w : Fin 640 → EReal) (hf : ∀ i, ∃ r : ℝ, f i = (r : EReal)) :
    ∑ i : Fin 640, (f i - f i) * w i = 0 :=
  Finset.sum_eq_zero fun i _ => by
    obtain ⟨r, hr⟩ := hf i
    rw [hr, ← EReal.coe_sub, sub_self, EReal.coe_zero, zero_mul]

/-- Word arithmetic: for an index below 3200 and a chunk start at most 2560, a row number below 640 is the
    index minus the start as 32-bit words exactly when the index is the start plus the row number. -/
theorem word_eq_iff (g : BitVec 32) (hg : g.toNat < 3200) (m0 : ℕ) (hm : m0 ≤ 2560) (i : ℕ) (hi : i < 640) :
    BitVec.ofNat 32 i = g - BitVec.ofNat 32 m0 ↔ g.toNat = m0 + i := by
  rw [← BitVec.toNat_inj, BitVec.toNat_sub, BitVec.toNat_ofNat, BitVec.toNat_ofNat]
  have h32 : (2 : ℕ) ^ 32 = 4294967296 := by norm_num
  rw [h32]
  omega

/-- The five chunks partition the source positions: exactly one of them holds position `t`. -/
theorem five_chunks (t : ℕ) (ht : t < 3200) (v : EReal) :
    (if 0 ≤ t ∧ t < 0 + 640 then v else 0) + (if 640 ≤ t ∧ t < 640 + 640 then v else 0)
      + (if 1280 ≤ t ∧ t < 1280 + 640 then v else 0) + (if 1920 ≤ t ∧ t < 1920 + 640 then v else 0)
      + (if 2560 ≤ t ∧ t < 2560 + 640 then v else 0) = v := by
  split_ifs <;> first | omega | simp

/-- The ten steps' sum, channel by channel. -/
theorem interleave (a0 a1 a2 a3 a4 b0 b1 b2 b3 b4 : EReal) :
    0 + a0 + b0 + a1 + b1 + a2 + b2 + a3 + b3 + a4 + b4
      = (a0 + a1 + a2 + a3 + a4) + (b0 + b1 + b2 + b3 + b4) := by
  rw [zero_add]; abel

end Algebra

/-! ## One contribution, one step, and the ten steps -/

/-- The chunk viewed as a matrix, read at (d, i). -/
theorem srccast_apply (src : Vec Ideal S1x1x192x640 .f32) (d : Fin 192) (i : Fin 640) :
    shapeCast S192x640 src shapeCasts_S1x1x192x640_S192x640 (ix2 d i)
      = src (ix4 (0 : Fin 1) (0 : Fin 1) d i) := by
  refine shapeCast_apply src _ (ix2 d i) (ix4 (0 : Fin 1) (0 : Fin 1) d i) ?_
  rw [Shape.rowMajor_val_four, Shape.rowMajor_val_two]
  show ((0 * 1 + 0) * 192 + d.val) * 640 + i.val = d.val * 640 + i.val
  omega

/-- One chunk's contribution read at (d, l): the chunk's row against the selection column, plus the remainder's. -/
theorem picked_apply (oh : FVec Ideal S640x640 .bf16) (src : Vec Ideal S1x1x192x640 .f32) (d : Fin 192) (l : Fin 640) :
    picked (F := Ideal) oh src (ix2 d l)
      = (∑ i : Fin 640, src (ix4 (0 : Fin 1) (0 : Fin 1) d i) * oh (ix2 i l))
        + ∑ i : Fin 640, (src (ix4 (0 : Fin 1) (0 : Fin 1) d i) - src (ix4 (0 : Fin 1) (0 : Fin 1) d i)) * oh (ix2 i l) := by
  show matmul D none _ oh _ (ix2 d l) + matmul D none _ oh _ (ix2 d l) = _
  rw [matmul_at, matmul_at]
  congr 1
  · refine Finset.sum_congr rfl fun i _ => ?_
    show shapeCast S192x640 src shapeCasts_S1x1x192x640_S192x640 (ix2 d i) * _ = _
    rw [srccast_apply]
  · refine Finset.sum_congr rfl fun i _ => ?_
    show (shapeCast S192x640 src shapeCasts_S1x1x192x640_S192x640 (ix2 d i)
      - shapeCast S192x640 src shapeCasts_S1x1x192x640_S192x640 (ix2 d i)) * _ = _
    rw [srccast_apply]

/-- The contribution of the chunk starting at `m0` for an index row whose entry at column `l` is the word `w`:
    the chunk's entry at position `w − m0` when `w` lies in the chunk, else 0. -/
theorem picked_sel_apply (g : Vec Ideal S1x1x640 .i32) (m0 : ℕ) (hm : m0 ≤ 2560) (src : Vec Ideal S1x1x192x640 .f32)
    (hsrc : ∀ j, ∃ r : ℝ, src j = (r : EReal)) (d : Fin 192) (l : Fin 640)
    (w : BitVec 32) (hw : g (ix3 (0 : Fin 1) (0 : Fin 1) l) = w) (hwr : w.toNat < 3200) :
    picked (F := Ideal) (sel g (BitVec.ofNat 32 m0)) src (ix2 d l)
      = if h : m0 ≤ w.toNat ∧ w.toNat < m0 + 640
          then src (ix4 (0 : Fin 1) (0 : Fin 1) d (⟨w.toNat - m0, by omega⟩ : Fin 640)) else 0 := by
  rw [picked_apply, sum_remainder _ _ (fun i => hsrc _), add_zero]
  simp only [sel_apply, hw]
  by_cases h : m0 ≤ w.toNat ∧ w.toNat < m0 + 640
  · rw [dif_pos h]
    refine sum_pick (fun i => src (ix4 (0 : Fin 1) (0 : Fin 1) d i)) _ ⟨w.toNat - m0, by omega⟩ fun i => ?_
    rw [word_eq_iff w hwr m0 hm i.val i.isLt, Fin.ext_iff]
    show w.toNat = m0 + i.val ↔ i.val = w.toNat - m0
    omega
  · rw [dif_neg h]
    refine sum_pick_none _ _ fun i => ?_
    rw [word_eq_iff w hwr m0 hm i.val i.isLt]
    have := i.isLt
    omega

/-- The same for a chunk loaded from the panel: channel `k`'s entry at source position `w` when `w` lies in the chunk. -/
theorem step_contrib (x0 : Vec Ideal S1x2x192x3200 .f32) (hfin : ∀ j, ∃ r : ℝ, x0 j = (r : EReal))
    (g : Vec Ideal S1x1x640 .i32) (k m0 : ℕ) (hk : k < 2) (hm : m0 ≤ 2560)
    (inb : ∀ a, (![0, k, 0, m0] : Fin 4 → ℕ) a + S1x1x192x640.size a ≤ S1x2x192x3200.size a)
    (d : Fin 192) (l : Fin 640) (w : BitVec 32) (hw : g (ix3 (0 : Fin 1) (0 : Fin 1) l) = w) (hwr : w.toNat < 3200) :
    picked (F := Ideal) (sel g (BitVec.ofNat 32 m0))
        (View.ld x0 (Rect.unit (s := S1x2x192x3200) ![0, k, 0, m0] S1x1x192x640.size inb)) (ix2 d l)
      = if m0 ≤ w.toNat ∧ w.toNat < m0 + 640
          then x0 (ix4 (0 : Fin 1) (⟨k, hk⟩ : Fin 2) d (⟨w.toNat, hwr⟩ : Fin 3200)) else 0 := by
  refine (picked_sel_apply g m0 hm (View.ld x0 (Rect.unit (s := S1x2x192x3200) ![0, k, 0, m0] S1x1x192x640.size inb))
    (fun j => hfin _) d l w hw hwr).trans ?_
  by_cases h : m0 ≤ w.toNat ∧ w.toNat < m0 + 640
  · rw [dif_pos h, if_pos h, ld_chunk x0 k m0 hk (by omega) inb d]
    have e : (⟨m0 + (w.toNat - m0), by omega⟩ : Fin 3200) = ⟨w.toNat, hwr⟩ := Fin.ext (by show m0 + (w.toNat - m0) = w.toNat; omega)
    rw [e]
  · rw [dif_neg h, if_neg h]

/-- Adding a contribution, read at (0, d, l). -/
theorem accum_apply (acc : Vec Ideal S1x192x640 .f32) (c : FVec Ideal S192x640 .f32) (d : Fin 192) (l : Fin 640) :
    accum (F := Ideal) acc c (ix3 (0 : Fin 1) d l) = acc (ix3 (0 : Fin 1) d l) + c (ix2 d l) := by
  refine (shapeCast_ab_1ab_apply _ _ 0 d l).trans ?_
  show shapeCast S192x640 acc shapeCasts_S1x192x640_S192x640 (ix2 d l) + c (ix2 d l) = _
  rw [shapeCast_1ab_ab_apply]

/-- The zero tile reads the real 0 everywhere. -/
theorem zeroTile_apply (d : Fin 192) (l : Fin 640) : zeroTile (F := Ideal) (ix3 (0 : Fin 1) d l) = 0 := by
  refine (shapeCast_ab_1ab_apply _ _ 0 d l).trans ?_
  exact Ideal.ofBits_zero_f32

/-- The tile at (0, d, l): the two channels' panel entries at the positions the index block names. -/
theorem bodyFn_apply (x0 : Vec Ideal S1x2x192x3200 .f32) (x1 : Vec Ideal S1x2x640 .i32)
    (hfin : ∀ j, ∃ r : ℝ, x0 j = (r : EReal)) (hrng : ∀ j, (x1 j).toNat < 3200)
    (d : Fin 192) (l : Fin 640) :
    bodyFn (F := Ideal) x0 x1 (ix3 (0 : Fin 1) d l)
      = ∑ k : Fin 2, x0 (ix4 (0 : Fin 1) k d (⟨(x1 (ix3 (0 : Fin 1) k l)).toNat, hrng _⟩ : Fin 3200)) := by
  unfold bodyFn chain step
  simp only [accum_apply, zeroTile_apply]
  rw [step_contrib x0 hfin (row0 x1) 0 0 (by omega) (by omega) _ d l _ (row0_apply x1 l) (hrng _),
    step_contrib x0 hfin (row1 x1) 1 0 (by omega) (by omega) _ d l _ (row1_apply x1 l) (hrng _),
    step_contrib x0 hfin (row0 x1) 0 640 (by omega) (by omega) _ d l _ (row0_apply x1 l) (hrng _),
    step_contrib x0 hfin (row1 x1) 1 640 (by omega) (by omega) _ d l _ (row1_apply x1 l) (hrng _),
    step_contrib x0 hfin (row0 x1) 0 1280 (by omega) (by omega) _ d l _ (row0_apply x1 l) (hrng _),
    step_contrib x0 hfin (row1 x1) 1 1280 (by omega) (by omega) _ d l _ (row1_apply x1 l) (hrng _),
    step_contrib x0 hfin (row0 x1) 0 1920 (by omega) (by omega) _ d l _ (row0_apply x1 l) (hrng _),
    step_contrib x0 hfin (row1 x1) 1 1920 (by omega) (by omega) _ d l _ (row1_apply x1 l) (hrng _),
    step_contrib x0 hfin (row0 x1) 0 2560 (by omega) (by omega) _ d l _ (row0_apply x1 l) (hrng _),
    step_contrib x0 hfin (row1 x1) 1 2560 (by omega) (by omega) _ d l _ (row1_apply x1 l) (hrng _)]
  rw [interleave, five_chunks _ (hrng _), five_chunks _ (hrng _), Fin.sum_univ_two]
  rfl

end Cert.KernelIdeal.Body

end
-- ==== Proof.KernelArray.lean ====
/-
  From the tiles to the result array.

  The output array [16, 192, 3200] is cut into 16 × 5 tiles of [1, 192, 640]; grid point `t` is batch element `t / 5`,
  tile `t % 5`, and flushes the body's tile there. Its two input blocks are the panel of batch element `t / 5` (all of
  it: [1, 2, 192, 3200]) and columns `640·(t % 5) … 640·(t % 5) + 639` of that batch element's index rows. So every tile
  is the restriction of ONE whole-array function of the panel and the index array,

      padded P G (b, d, q) = Σ_{k < 2} P(b, k, d, G(b, k, q)),

  the tiles cover the array, and the array after the run is `padded` of the panel and index array the region found.
  The lines after the region keep columns `q < 3136`; there the index array holds the argsort's positions and the panel
  the merged planes, which is the specification's `result`.
-/
import proofs.«421471_j34059090657946_3_alg».proof.Proof.Gen.KernelIdeal.Frame
import proofs.«421471_j34059090657946_3_alg».proof.Proof.BodyShape
import proofs.«421471_j34059090657946_3_alg».proof.Proof.BodyIdeal
import proofs.«421471_j34059090657946_3_alg».proof.Proof.Staged
import proofs.«421471_j34059090657946_3_alg».proof.Proof.Spec
import Idealize.ShloMosaic.Lib.ValueIdx
import Idealize.ShloMosaic.Lib.Pipeline.Value
import Idealize.ShloMosaic.Lib.StableHlo.Run
import Idealize.ShloMosaic.Lib.Tactic

set_option maxRecDepth 16384

noncomputable section

namespace Cert.KernelIdeal.Arr

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Body Cert.KernelIdeal.Staged Cert.CrossMerge

/-! ## The whole-array function, over any panel and index array -/

/-- The padded result at batch element `b`, row `d`, column `q`. -/
def paddedAt (P : FVec Ideal S16x2x192x3200 .f32) (G : IVec S16x2x3200 32) (hG : ∀ j, (G j).toNat < 3200)
    (b : Fin 16) (d : Fin 192) (q : Fin 3200) : EReal :=
  ∑ k : Fin 2, P (ix4 b k d (⟨(G (ix3 b k q)).toNat, hG _⟩ : Fin 3200))

/-- The padded result array. -/
def padded (P : FVec Ideal S16x2x192x3200 .f32) (G : IVec S16x2x3200 32) (hG : ∀ j, (G j).toNat < 3200) :
    FVec Ideal S16x192x3200 .f32 := fun j =>
  paddedAt P G hG (⟨(j 0).val, (j 0).isLt⟩ : Fin 16) (⟨(j 1).val, (j 1).isLt⟩ : Fin 192) (⟨(j 2).val, (j 2).isLt⟩ : Fin 3200)

theorem padded_ix3 (P : FVec Ideal S16x2x192x3200 .f32) (G : IVec S16x2x3200 32) (hG : ∀ j, (G j).toNat < 3200)
    (b : Fin 16) (d : Fin 192) (q : Fin 3200) : padded P G hG (ix3 b d q) = paddedAt P G hG b d q := rfl

/-- An index of a [1, 2, 192, 3200] block is its last three coordinates. -/
theorem exists_ix4_block (j : S1x2x192x3200.Idx) :
    ∃ (k : Fin 2) (d : Fin 192) (p : Fin 3200), j = ix4 (0 : Fin 1) k d p :=
  ⟨⟨(j 1).val, (j 1).isLt⟩, ⟨(j 2).val, (j 2).isLt⟩, ⟨(j 3).val, (j 3).isLt⟩, funext fun a => by
    match a with
    | ⟨0, _⟩ => exact Fin.ext (by have h : (j 0).val < 1 := (j 0).isLt; show (j 0).val = 0; omega)
    | ⟨1, _⟩ => rfl
    | ⟨2, _⟩ => rfl
    | ⟨3, _⟩ => rfl⟩

/-- An index of a [1, 2, 640] block is its last two coordinates. -/
theorem exists_ix3_rows (j : S1x2x640.Idx) : ∃ (k : Fin 2) (l : Fin 640), j = ix3 (0 : Fin 1) k l :=
  ⟨⟨(j 1).val, (j 1).isLt⟩, ⟨(j 2).val, (j 2).isLt⟩, funext fun a => by
    match a with
    | ⟨0, _⟩ => exact Fin.ext (by have h : (j 0).val < 1 := (j 0).isLt; show (j 0).val = 0; omega)
    | ⟨1, _⟩ => rfl
    | ⟨2, _⟩ => rfl⟩

/-- THE TILE: when the panel block is batch element `b` of a panel of reals `P` and the index block is columns
    `640·lb … 640·lb + 639` of batch element `b` of an index array `G` of positions below 3200, the body's tile at (0, d, l)
    is the padded result at (b, d, 640·lb + l). -/
theorem tile_eq (P : FVec Ideal S16x2x192x3200 .f32) (G : IVec S16x2x3200 32)
    (hP : ∀ j, ∃ r : ℝ, P j = (r : EReal)) (hG : ∀ j, (G j).toNat < 3200)
    (x0 : Vec Ideal S1x2x192x3200 .f32) (x1 : Vec Ideal S1x2x640 .i32) (b : Fin 16) (lb : Fin 5)
    (h0 : ∀ (k : Fin 2) (d : Fin 192) (p : Fin 3200), x0 (ix4 (0 : Fin 1) k d p) = P (ix4 b k d p))
    (h1 : ∀ (k : Fin 2) (l : Fin 640),
      x1 (ix3 (0 : Fin 1) k l) = G (ix3 b k (⟨640 * lb.val + l.val, by omega⟩ : Fin 3200)))
    (d : Fin 192) (l : Fin 640) :
    bodyFn (F := Ideal) x0 x1 (ix3 (0 : Fin 1) d l)
      = paddedAt P G hG b d (⟨640 * lb.val + l.val, by omega⟩ : Fin 3200) := by
  have hfin : ∀ j, ∃ r : ℝ, x0 j = (r : EReal) := fun j => by
    obtain ⟨k, d', p, rfl⟩ := exists_ix4_block j
    rw [h0]; exact hP _
  have hrng : ∀ j, (x1 j).toNat < 3200 := fun j => by
    obtain ⟨k, l', rfl⟩ := exists_ix3_rows j
    rw [h1]; exact hG _
  rw [bodyFn_apply x0 x1 hfin hrng d l]
  unfold paddedAt
  refine Finset.sum_congr rfl fun k _ => ?_
  rw [h0]
  refine congrArg P (congrArg (ix4 b k d) (Fin.ext ?_))
  show (x1 (ix3 (0 : Fin 1) k l)).toNat = (G (ix3 b k (⟨640 * lb.val + l.val, by omega⟩ : Fin 3200))).toNat
  rw [h1]

/-! ## The grid -/

/-- The printed index maps over the 80 grid points: point `t` is batch element `t / 5`, tile `t % 5`. -/
theorem grid_facts : ∀ t : Fin cfg0.N,
    win0_0.index t (0 : Fin 4) = t.val / 5 ∧ win0_0.index t (1 : Fin 4) = 0
    ∧ win0_0.index t (2 : Fin 4) = 0 ∧ win0_0.index t (3 : Fin 4) = 0
    ∧ win0_1.index t (0 : Fin 3) = t.val / 5 ∧ win0_1.index t (1 : Fin 3) = 0 ∧ win0_1.index t (2 : Fin 3) = t.val % 5
    ∧ win0_2.index t (0 : Fin 3) = t.val / 5 ∧ win0_2.index t (1 : Fin 3) = 0 ∧ win0_2.index t (2 : Fin 3) = t.val % 5 :=
  (by decide +kernel : ∀ t : Fin grid0.N, _)

/-! ## The blocks of the arrays the region finds -/

variable (m : (ℓ : Loc nD τ sig) → Buf (Elt Ideal) ℓ) (ρ : Dev nD → PrngReg)

/-- The panel and the index array as the region finds them, at their literal types. -/
abbrev panel (c : Dev nD) : FVec Ideal S16x2x192x3200 .f32 := V m c main_v7
abbrev gidx (c : Dev nD) : IVec S16x2x3200 32 := V m c main_v8

/-- Grid point `t`'s batch element and tile. -/
def bOf (t : Fin cfg0.N) : Fin 16 := ⟨t.val / 5, by have h := t.isLt; have hN : cfg0.N = 80 := N_0; omega⟩
def lbOf (t : Fin cfg0.N) : Fin 5 := ⟨t.val % 5, Nat.mod_lt _ (by norm_num)⟩

/-- An index of a [1, 192, 640] tile is its last two coordinates. -/
theorem exists_ix3_tile (j : S1x192x640.Idx) : ∃ (d : Fin 192) (l : Fin 640), j = ix3 (0 : Fin 1) d l :=
  ⟨⟨(j 1).val, (j 1).isLt⟩, ⟨(j 2).val, (j 2).isLt⟩, funext fun a => by
    match a with
    | ⟨0, _⟩ => exact Fin.ext (by have h : (j 0).val < 1 := (j 0).isLt; show (j 0).val = 0; omega)
    | ⟨1, _⟩ => rfl
    | ⟨2, _⟩ => rfl⟩

/-- The panel block at point `t` is batch element `t / 5` of the panel. -/
theorem iblk0_apply (c : Dev nD) (t : Fin cfg0.N) (k : Fin 2) (d : Fin 192) (p : Fin 3200) :
    (iblk m c 0 t : Vec Ideal S1x2x192x3200 .f32) (ix4 (0 : Fin 1) k d p) = panel m c (ix4 (bOf t) k d p) := by
  obtain ⟨e0, e1, e2, e3, -⟩ := grid_facts t
  unfold iblk
  rw [View.read_apply]
  show V m c main_v7 _ = V m c main_v7 _
  refine congrArg (V m c main_v7) (funext fun a => Fin.ext ?_)
  match a with
  | ⟨0, _⟩ => show win0_0.index t (0 : Fin 4) * 1 + 1 * 0 = t.val / 5; rw [e0]; omega
  | ⟨1, _⟩ => show win0_0.index t (1 : Fin 4) * 2 + 1 * k.val = k.val; rw [e1]; omega
  | ⟨2, _⟩ => show win0_0.index t (2 : Fin 4) * 192 + 1 * d.val = d.val; rw [e2]; omega
  | ⟨3, _⟩ => show win0_0.index t (3 : Fin 4) * 3200 + 1 * p.val = p.val; rw [e3]; omega

/-- The index block at point `t` is columns `640·(t % 5) …` of batch element `t / 5` of the index array. -/
theorem iblk1_apply (c : Dev nD) (t : Fin cfg0.N) (k : Fin 2) (l : Fin 640) :
    (iblk m c 1 t : Vec Ideal S1x2x640 .i32) (ix3 (0 : Fin 1) k l)
      = gidx m c (ix3 (bOf t) k (⟨640 * (lbOf t).val + l.val, by have := (lbOf t).isLt; omega⟩ : Fin 3200)) := by
  obtain ⟨-, -, -, -, e4, e5, e6, -⟩ := grid_facts t
  unfold iblk
  rw [View.read_apply]
  show V m c main_v8 _ = V m c main_v8 _
  refine congrArg (V m c main_v8) (funext fun a => Fin.ext ?_)
  match a with
  | ⟨0, _⟩ => show win0_1.index t (0 : Fin 3) * 1 + 1 * 0 = t.val / 5; rw [e4]; omega
  | ⟨1, _⟩ => show win0_1.index t (1 : Fin 3) * 2 + 1 * k.val = k.val; rw [e5]; omega
  | ⟨2, _⟩ => show win0_1.index t (2 : Fin 3) * 640 + 1 * l.val = 640 * (t.val % 5) + l.val; rw [e6]; omega

/-- The body's tile at point `t`, entry by entry: the padded result of the region's panel and index array. -/
theorem tile_apply (c : Dev nD) (hys : ∀ i, ∃ r : ℝ, ys m c i = (r : EReal)) (t : Fin cfg0.N) (d : Fin 192) (l : Fin 640) :
    bodyFn (F := Ideal) (iblk m c 0 t) (iblk m c 1 t) (ix3 (0 : Fin 1) d l)
      = paddedAt (panel m c) (gidx m c) (gidx_lt m c) (bOf t) d
          (⟨640 * (lbOf t).val + l.val, by have := (lbOf t).isLt; omega⟩ : Fin 3200) :=
  tile_eq (panel m c) (gidx m c) (panel_real m c hys) (gidx_lt m c) (iblk m c 0 t) (iblk m c 1 t) (bOf t) (lbOf t)
    (iblk0_apply m c t) (iblk1_apply m c t) d l

/-- The same at any index of the tile, as the padded result at the index's place in the array. -/
theorem tile_point (c : Dev nD) (hys : ∀ i, ∃ r : ℝ, ys m c i = (r : EReal)) (t : Fin cfg0.N) (y : S1x192x640.Idx) :
    bodyFn (F := Ideal) (iblk m c 0 t) (iblk m c 1 t) y
      = padded (panel m c) (gidx m c) (gidx_lt m c) (((cfg0.win 2).blk t).view.emb y) := by
  obtain ⟨-, -, -, -, -, -, -, e7, e8, e9⟩ := grid_facts t
  obtain ⟨d, l, rfl⟩ := exists_ix3_tile y
  rw [tile_apply m c hys t d l, ← padded_ix3]
  refine congrArg (padded (panel m c) (gidx m c) (gidx_lt m c)) (funext fun a => Fin.ext ?_)
  match a with
  | ⟨0, _⟩ => show t.val / 5 = win0_2.index t (0 : Fin 3) * 1 + 1 * 0; rw [e7]; omega
  | ⟨1, _⟩ => show d.val = win0_2.index t (1 : Fin 3) * 192 + 1 * d.val; rw [e8]; omega
  | ⟨2, _⟩ => show 640 * (t.val % 5) + l.val = win0_2.index t (2 : Fin 3) * 640 + 1 * l.val; rw [e9]; omega

/-- WHAT POINT `t` WRITES BACK is block `t` of the padded result. -/
theorem flushed_eq (c : Dev nD) (hys : ∀ i, ∃ r : ℝ, ys m c i = (r : EReal)) (t : Fin cfg0.N) :
    (dats m 0 c).flushed 2 t
      = ((cfg0.win 2).blk t).view.read (Elt Ideal) (padded (panel m c) (gidx m c) (gidx_lt m c)) := by
  show (cfg0.win 2).cut (grid0.coords t) ((dats m 0 c).after 2 t) = _
  rw [after0_2]
  unfold outsAt0
  rw [out_eq]
  funext y
  rw [View.read_apply]
  exact tile_point m c hys t y

/-- Every index of the array lies in the tile of point `5·b + q / 640`. -/
theorem cover (i : S16x192x3200.Idx) :
    ∃ t : Fin cfg0.N, (cfg0.win 2).flush t = true ∧ i ∈ ((cfg0.win 2).blk t).view.set := by
  have hN : cfg0.N = 80 := N_0
  have h0 : (i 0).val < 16 := (i 0).isLt
  have h1 : (i 1).val < 192 := (i 1).isLt
  have h2 : (i 2).val < 3200 := (i 2).isLt
  have ht : 5 * (i 0).val + (i 2).val / 640 < cfg0.N := by rw [hN]; omega
  obtain ⟨-, -, -, -, -, -, -, e7, e8, e9⟩ := grid_facts ⟨5 * (i 0).val + (i 2).val / 640, ht⟩
  refine ⟨⟨5 * (i 0).val + (i 2).val / 640, ht⟩, flush0_2 _, ?_⟩
  show i ∈ ((View.whole main_v9).slice (win0_2.rect ⟨5 * (i 0).val + (i 2).val / 640, ht⟩)).set
  rw [View.set_slice_whole, Rect.mem_set_unit]
  intro a
  match a with
  | ⟨0, _⟩ =>
    show win0_2.index ⟨5 * (i 0).val + (i 2).val / 640, ht⟩ (0 : Fin 3) * 1 ≤ (i 0).val
      ∧ (i 0).val < win0_2.index ⟨5 * (i 0).val + (i 2).val / 640, ht⟩ (0 : Fin 3) * 1 + 1
    rw [e7]; dsimp only; omega
  | ⟨1, _⟩ =>
    show win0_2.index ⟨5 * (i 0).val + (i 2).val / 640, ht⟩ (1 : Fin 3) * 192 ≤ (i 1).val
      ∧ (i 1).val < win0_2.index ⟨5 * (i 0).val + (i 2).val / 640, ht⟩ (1 : Fin 3) * 192 + 192
    rw [e8]; omega
  | ⟨2, _⟩ =>
    show win0_2.index ⟨5 * (i 0).val + (i 2).val / 640, ht⟩ (2 : Fin 3) * 640 ≤ (i 2).val
      ∧ (i 2).val < win0_2.index ⟨5 * (i 0).val + (i 2).val / 640, ht⟩ (2 : Fin 3) * 640 + 640
    rw [e9]; dsimp only; omega

/-- THE ARRAY after the run is the padded result of the panel and index array the region found. -/
theorem final (c : Dev nD) (hys : ∀ i, ∃ r : ℝ, ys m c i = (r : EReal)) :
    (dats m 0 c).arrAt 2 cfg0.N = padded (panel m c) (gidx m c) (gidx_lt m c) :=
  (dats m 0 c).arrAt_eq_of_cover 2 (padded (panel m c) (gidx m c) (gidx_lt m c))
    (fun t _ => flushed_eq m c hys t) (cover)

/-! ## The lines after the region, and the run -/

/-- The panel at a source position below 3136 is the merged plane there. -/
theorem panel_at (c : Dev nD) (b : Fin 16) (k : Fin 2) (d : Fin 192) (n : ℕ) (hn : n < 3200) (hn' : n < 3136) :
    panel m c (ix4 b k d (⟨n, hn⟩ : Fin 3200)) = merged (ys m c) b k d n := by
  show (V m c main_v7 : S16x2x192x3200.Idx → EReal) (ix4 b k d (⟨n, hn⟩ : Fin 3200)) = _
  rw [panel_apply m c b k d (⟨n, hn⟩ : Fin 3200)]
  exact if_pos hn'

/-- The kept columns `q < 3136` of the padded result are the specification's result of the first argument and the
    argsort's positions: there the index array holds the positions and the panel the merged planes. -/
theorem kept_eq (c : Dev nD) :
    extractStridedSlice S16x192x3136 ![0, 0, 0] (padded (panel m c) (gidx m c) (gidx_lt m c))
        slices_S16x192x3200_S16x192x3136_0_0_0
      = result (ys m c) (perm m c) := by
  funext j
  obtain ⟨b, d, l, rfl⟩ : ∃ (b : Fin 16) (d : Fin 192) (l : Fin 3136), j = ix3 b d l :=
    ⟨⟨(j 0).val, (j 0).isLt⟩, ⟨(j 1).val, (j 1).isLt⟩, ⟨(j 2).val, (j 2).isLt⟩, funext fun a => by
      match a with
      | ⟨0, _⟩ => rfl
      | ⟨1, _⟩ => rfl
      | ⟨2, _⟩ => rfl⟩
  have hl : l.val < 3200 := by have := l.isLt; omega
  rw [extractStridedSlice_apply ![0, 0, 0] _ slices_S16x192x3200_S16x192x3136_0_0_0 (ix3 b d l)
    (ix3 b d (⟨l.val, hl⟩ : Fin 3200)) (fun a => by
      match a with
      | ⟨0, _⟩ => show b.val = 0 + b.val; omega
      | ⟨1, _⟩ => show d.val = 0 + d.val; omega
      | ⟨2, _⟩ => show l.val = 0 + l.val; omega)]
  rw [padded_ix3, result_ix3]
  unfold paddedAt resultAt
  refine Finset.sum_congr rfl fun k _ => ?_
  have hg : gidx m c (ix3 b k (⟨l.val, hl⟩ : Fin 3200)) = perm m c (ix3 b l k) := by
    show (V m c main_v8 : S16x2x3200.Idx → BitVec 32) (ix3 b k (⟨l.val, hl⟩ : Fin 3200)) = _
    rw [gidx_apply m c b k (⟨l.val, hl⟩ : Fin 3200), dif_pos l.isLt]
  have hn : (gidx m c (ix3 b k (⟨l.val, hl⟩ : Fin 3200))).toNat < 3136 := by rw [hg]; exact perm_lt m c _
  refine (panel_at m c b k d _ _ hn).trans ?_
  rw [hg]

/-- What the lines after the region leave in the result buffer. -/
theorem tail_eq (c : Dev nD) (hys : ∀ i, ∃ r : ℝ, ys m c i = (r : EReal)) :
    Pipeline.afterTail₀ cfgs (dats m) 0 (V0 m) [hostOps1] c main_v10 = result (ys m c) (perm m c) := by
  unfold Pipeline.afterTail₀
  show StableHlo.after hostOps1 _ (Proc.devRef .tc main_v10) = _
  after_results
  have hw : Pipeline.withArrays (cfgs 0).spec c (V0 m c) (fun w => (dats m 0 c).arrAt w (cfgs 0).N)
      (Proc.devRef .tc main_v9) = padded (panel m c) (gidx m c) (gidx_lt m c) :=
    (Pipeline.withArrays_arr spec0 launch0.win.arr_inj c _ _ 2).trans (final m c hys)
  refine (congrArg (fun x : FVec Ideal S16x192x3200 .f32 =>
    extractStridedSlice S16x192x3136 ![0, 0, 0] x slices_S16x192x3200_S16x192x3136_0_0_0) hw).trans ?_
  exact kept_eq m c

/-- THE RUN of the idealized kernel: every weakly fair execution terminates with the result buffer at the
    specification's result of the first argument and the argsort's positions, the arguments unchanged. -/
theorem run (hys : ∀ c i, ∃ r : ℝ, ys m c i = (r : EReal)) :
    θ_run defs (onTc (τ := τ) (main (F := Ideal))) ⟨m, fun _ => 0, ρ⟩ fun r => ∀ c : Dev nD,
      r.2.mem ((c.tc : Thread nD τ).loc main_v10) = result (ys m c) (perm m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v10 (Pipeline.mem_restRefs_of main_v10 (by decide) (by decide))).trans (tail_eq m c (hys c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Arr

end
-- ==== Proof.Finite.lean ====
/-
  Under the precondition every entry of the first argument is a real number.

  The precondition says that `|x| < +∞` holds at every index of the first argument (one `and` over all of them, equal
  to 1). An extended real whose absolute value is strictly below `+∞` is neither `+∞` nor `−∞`, hence a real.
-/
import proofs.«421471_j34059090657946_3_alg».proof.Defs
import proofs.«421471_j34059090657946_3_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx Idealize.SL.Sem

instance : Subsingleton Cert.Pre_finite_inputs.S_.Idx := ⟨fun a b => funext fun d => d.elim0⟩

theorem real_of_pre (x : FVec Ideal Cert.Pre_finite_inputs.S16x4x192x56x56 .f32) (y : IVec Cert.Pre_finite_inputs.S16x3136x2 32)
    (h : Cert.Pre_finite_inputs.fn (F := Ideal) x y = fun _ => 1#1) (i : Cert.Pre_finite_inputs.S16x4x192x56x56.Idx) :
    ∃ r : ℝ, x i = (r : EReal) := by
  have h0 := congrFun h ix0
  dsimp only [Cert.Pre_finite_inputs.fn] at h0
  have h1 := Host.reduce_andi_all _ _ _ _ _ h0 i
  have h2 : Ideal.cmp .olt (max (x i) (-(x i))) (Ideal.ofBits .f32 0x7F800000#32) = 1#1 := h1
  generalize x i = z at h2 ⊢
  induction z using EReal.rec with
  | bot => simp [Ideal.cmp, Ideal.ofBits, Ideal.ieee] at h2
  | coe r => exact ⟨r, rfl⟩
  | top => simp [Ideal.cmp, Ideal.ofBits, Ideal.ieee] at h2

end Cert.Finite

end
-- ==== Proof.lean ====
/-
  The certificate: a one-hot matrix-product gather against `take_along_axis`.

  Both programs take `ys : [16, 4, 192, 56, 56]` (four scan directions over a 56 × 56 plane) and an integer array
  `[16, 3136, 2]`, argsort the latter along its middle axis into plane positions `perm`, and return, at `(b, d, l)`,

      Σ_{k < 2} ( plane ys b k d p_k + plane ys b (k + 2) d (3135 − p_k) ),   p_k = perm (b, l, k)

  (`Cert.CrossMerge.result`, Spec.lean). The reference gathers the two forward directions and the two reversed backward
  directions separately with `take_along_axis`, adds, and sums the pairs (RefValue.lean). The kernel first adds each
  forward direction to its reversed backward partner, pads the 3136 positions to 3200, and gathers by multiplying each
  640-wide source chunk with a 0/1 selection matrix built from the positions, the chunk split into a short-format part
  and a remainder; over the extended reals the short format is exact, so the remainder is `x − x`, which is 0 for the
  real entries the precondition gives (Finite.lean), a product with the selection matrix picks one entry or none, and
  the five chunks of a channel pick exactly the entry at `p_k` (BodyIdeal.lean). Every position an argsort returns is
  a position of the sorted axis (LibSortIota.lean), so the kernel's selection always finds its entry and the
  reference's range mask never discards one. The tiles the grid writes are restrictions of one array function and cover
  the array (KernelArray.lean), and the kept columns are `result`.

  The three frames are the generated frame certificates and the reference's run; `preserves` is the format-change
  rule's statement at each of its ten sites.
-/
import proofs.«421471_j34059090657946_3_alg».proof.Defs
import proofs.«421471_j34059090657946_3_alg».proof.Proof.Gen.Kernel
import proofs.«421471_j34059090657946_3_alg».proof.Proof.Gen.Kernel.Frame
import proofs.«421471_j34059090657946_3_alg».proof.Proof.Gen.KernelIdeal
import proofs.«421471_j34059090657946_3_alg».proof.Proof.Gen.KernelIdeal.Frame
import proofs.«421471_j34059090657946_3_alg».proof.Proof.Gen.ReferenceIdeal
import proofs.«421471_j34059090657946_3_alg».proof.Proof.Gen.Pre_finite_inputs
import proofs.«421471_j34059090657946_3_alg».proof.Proof.RefRun
import proofs.«421471_j34059090657946_3_alg».proof.Proof.RefRead
import proofs.«421471_j34059090657946_3_alg».proof.Proof.RefValue
import proofs.«421471_j34059090657946_3_alg».proof.Proof.Staged
import proofs.«421471_j34059090657946_3_alg».proof.Proof.KernelArray
import proofs.«421471_j34059090657946_3_alg».proof.Proof.Finite
import Idealize.ShloMosaic.Adequacy
import Idealize.ShloMosaic.Init

noncomputable section

namespace Cert.Proof

open Idealize.ShloMosaic Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-! ## The idealization's ledger -/

/-- Each of the ten sites narrows a [192, 640] chunk to the short format and widens it again: the identity over the
    extended reals, the rounding through the short format on words. -/
theorem preserves : Cert.preserves_Kernel_KernelIdeal :=
  have s := IdealRules.truncf_extf.statement Cert.KernelIdeal.S192x640 .f32 .bf16
  ⟨s, s, s, s, s, s, s, s, s, s⟩

/-! ## The two idealized programs agree -/

/-- The two programs' comparators are one function, so their argsorts of one array are one array of positions. -/
theorem perm_eq (m : (ℓ : Loc Cert.KernelIdeal.nD Cert.KernelIdeal.τ Cert.KernelIdeal.sig) → Buf (Elt Ideal) ℓ)
    (c : Dev Cert.KernelIdeal.nD) :
    Cert.ReferenceIdeal.RefValue.refPerm
        (m ((c.tc : Thread Cert.KernelIdeal.nD Cert.KernelIdeal.τ).loc Cert.KernelIdeal.main_arg1))
      = Cert.KernelIdeal.Staged.perm m c := rfl

theorem algebraic : Cert.algebraic_KernelIdeal_ReferenceIdeal := by
  intro m ρ m' ρ' hpre hagree
  have hys : ∀ c i, ∃ r : ℝ, Cert.KernelIdeal.Staged.ys m c i = (r : EReal) :=
    fun c i => Cert.Finite.real_of_pre _ _ (hpre c) i
  refine ⟨fun c => Cert.CrossMerge.result (Cert.KernelIdeal.Staged.ys m c) (Cert.KernelIdeal.Staged.perm m c),
    Cert.KernelIdeal.Arr.run m ρ hys, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v11_eq, (hagree c).1, (hagree c).2]
  have hlt : ∀ j, (Cert.ReferenceIdeal.RefValue.refPerm
      (m ((c.tc : Thread Cert.KernelIdeal.nD Cert.KernelIdeal.τ).loc Cert.KernelIdeal.main_arg1)) j).toNat < 3136 :=
    fun j => by rw [perm_eq m c]; exact Cert.KernelIdeal.Staged.perm_lt m c j
  refine (Cert.ReferenceIdeal.RefValue.ref_result _ _ hlt).trans ?_
  rw [perm_eq m c]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
